-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4096 : Shape := ⟨2, ![512, 4096]⟩
abbrev S4096x28672 : Shape := ⟨2, ![4096, 28672]⟩
abbrev S14336x4096 : Shape := ⟨2, ![14336, 4096]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  bcast_S_S4096x28672 : S_.BroadcastsInDim S4096x28672 (![] : Fin 0 → Fin S4096x28672.rank)
  reducesTo_S4096x28672_S_d0_1 : S4096x28672.ReducesTo [0, 1] S_
  bcast_S_S14336x4096 : S_.BroadcastsInDim S14336x4096 (![] : Fin 0 → Fin S14336x4096.rank)
  reducesTo_S14336x4096_S_d0_1 : S14336x4096.ReducesTo [0, 1] S_

variable [Facts]

def fn {F : FTy → Type} [FloatOps F] (main_arg0 : FVec F S512x4096 .f32) (main_arg1 : FVec F S4096x28672 .f32) (main_arg2 : FVec F S14336x4096 .f32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  let main_v4 : FVec F S4096x28672 .f32 := Host.absf main_arg1
  let main_cst_0 : FVec F S_ .f32 := constant S_ .f32 0x7F800000#32
  let main_v5 : FVec F S4096x28672 .f32 := broadcastInDim S4096x28672 ![] bcast_S_S4096x28672 main_cst_0
  let main_v6 : IVec S4096x28672 1 := cmpf .olt main_v4 main_v5
  let main_c_1 : IVec S_ 1 := constantI S_ 1 1#1
  let main_v7 : IVec S_ 1 := (fun x v => Host.reduce IntOp.andi x v reducesTo_S4096x28672_S_d0_1 h_S_) main_v6 main_c_1
  let main_v8 : IVec S_ 1 := andi main_v3 main_v7
  let main_v9 : FVec F S14336x4096 .f32 := Host.absf main_arg2
  let main_cst_2 : FVec F S_ .f32 := constant S_ .f32 0x7F800000#32
  let main_v10 : FVec F S14336x4096 .f32 := broadcastInDim S14336x4096 ![] bcast_S_S14336x4096 main_cst_2
  let main_v11 : IVec S14336x4096 1 := cmpf .olt main_v9 main_v10
  let main_c_3 : IVec S_ 1 := constantI S_ 1 1#1
  let main_v12 : IVec S_ 1 := (fun x v => Host.reduce IntOp.andi x v reducesTo_S14336x4096_S_d0_1 h_S_) main_v11 main_c_3
  let main_v13 : IVec S_ 1 := andi main_v8 main_v12
  main_v13
-- ==== Kernel.lean ====
abbrev S512x4096 : Shape := ⟨2, ![512, 4096]⟩
abbrev S4096x28672 : Shape := ⟨2, ![4096, 28672]⟩
abbrev S14336x4096 : Shape := ⟨2, ![14336, 4096]⟩
abbrev S512x14336 : Shape := ⟨2, ![512, 14336]⟩
abbrev S4096x256 : Shape := ⟨2, ![4096, 256]⟩
abbrev S512x256 : Shape := ⟨2, ![512, 256]⟩
abbrev S256x4096 : Shape := ⟨2, ![256, 4096]⟩

abbrev nBuf : Space → Nat
  | .hbm => 5
  | .vmem => 13
  | .smem => 0
  | _ => 0

abbrev bufTy : (tb : Table) → Fin (tcTables nBuf tb) → BufTy
  | .hbm, ⟨0, _⟩ => ⟨S512x4096, .f32⟩
  | .hbm, ⟨1, _⟩ => ⟨S4096x28672, .f32⟩
  | .hbm, ⟨2, _⟩ => ⟨S14336x4096, .f32⟩
  | .hbm, ⟨3, _⟩ => ⟨S512x14336, .bf16⟩
  | .hbm, ⟨4, _⟩ => ⟨S512x4096, .f32⟩
  | .local _ .vmem, ⟨0, _⟩ => ⟨S512x4096, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S256x4096, .f32⟩
  | .local _ .vmem, ⟨10, _⟩ => ⟨S256x4096, .f32⟩
  | .local _ .vmem, ⟨11, _⟩ => ⟨S512x4096, .f32⟩
  | .local _ .vmem, ⟨12, _⟩ => ⟨S512x4096, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_scratch0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11

abbrev nD : Nat := 1
abbrev τ : Topo := Topo.v7x

variable {F : FTy → Type} [FloatOps F]

abbrev grid0 : Pipeline.Grid := ⟨1, ![56], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c56_i32 : BitVec 32 := 56#32
  let v0 : BitVec 32 := Scalar.addi c56_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![56], ![false]⟩

def k1_cond2 (i : grid1.Coords) : BitVec 1 :=
  let arg0 : BitVec 32 := BitVec.ofNat 32 (i 0).val
  let c55_i32 : BitVec 32 := 55#32
  let v13 : BitVec 1 := Scalar.cmpi .eq arg0 c55_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  shapeCasts_S512x4096_S512x4096 : S512x4096.ShapeCasts S512x4096
  shapeCasts_S512x256_S512x256 : S512x256.ShapeCasts S512x256
  inb_S256x4096_S256x4096_0_0 : ∀ a, (![0, 0] : Fin 2 → Nat) a + S256x4096.size a ≤ S256x4096.size a
  h_S256x4096 : 0 < S256x4096.numel
  dot_S512x4096_S4096x256_S512x256_1_0_0_1_n_n_wf : DotDims.WF S512x4096 S4096x256 S512x256 [1] [0] [0] [1] [] []
  dot_S512x256_S256x4096_S512x4096_1_0_0_1_n_n_wf : DotDims.WF S512x256 S256x4096 S512x4096 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S512x4096.size a
  hwx0_0 : ∀ i : grid0.Coords, EltTy.bits .f32 = 32 ∨ (Rect.block (s := S512x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x28672.size a
  hwx0_1 : ∀ i : grid0.Coords, EltTy.bits .f32 = 32 ∨ (Rect.block (s := S4096x28672) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x28672.size a
  hwx0_2 : ∀ i : grid0.Coords, EltTy.bits .f32 = 32 ∨ (Rect.block (s := S4096x28672) S4096x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x14336.size a
  hwx0_3 : ∀ i : grid0.Coords, EltTy.bits .bf16 = 32 ∨ (Rect.block (s := S512x14336) S512x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S512x14336.size a
  hwx1_0 : ∀ i : grid1.Coords, EltTy.bits .bf16 = 32 ∨ (Rect.block (s := S512x14336) S512x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S14336x4096.size a
  hwx1_1 : ∀ i : grid1.Coords, EltTy.bits .f32 = 32 ∨ (Rect.block (s := S14336x4096) S256x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x4096.size a ≤ S512x4096.size a
  hwx1_2 : ∀ i : grid1.Coords, EltTy.bits .f32 = 32 ∨ (Rect.block (s := S512x4096) S512x4096.size (cc1_transform_2 i) (hinb1_2 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x4096_S512x4096_1_0_0_1_n_n : DotDims S512x256 S256x4096 S512x4096 where
  lhsContracting := [1]
  rhsContracting := [0]
  lhsNonContracting := [0]
  rhsNonContracting := [1]
  lhsBatch := []
  rhsBatch := []
  wf := dot_S512x256_S256x4096_S512x4096_1_0_0_1_n_n_wf

abbrev win0_0 : Pipeline.Window sig grid0 :=
  Pipeline.Window.ofSpec (Memref.whole main_arg0) S512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x4096.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S512x4096 : Shape := ⟨2, ![512, 4096]⟩
abbrev S4096x28672 : Shape := ⟨2, ![4096, 28672]⟩
abbrev S14336x4096 : Shape := ⟨2, ![14336, 4096]⟩
abbrev S512x28672 : Shape := ⟨2, ![512, 28672]⟩
abbrev S512x14336 : Shape := ⟨2, ![512, 14336]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S4096x28672, .f32⟩
  | .hbm, ⟨2, _⟩ => ⟨S14336x4096, .f32⟩
  | .hbm, ⟨3, _⟩ => ⟨S512x28672, .f32⟩
  | .hbm, ⟨4, _⟩ => ⟨S512x14336, .f32⟩
  | .hbm, ⟨5, _⟩ => ⟨S512x14336, .f32⟩
  | .hbm, ⟨6, _⟩ => ⟨S512x14336, .f32⟩
  | .hbm, ⟨7, _⟩ => ⟨S512x14336, .f32⟩
  | .hbm, ⟨8, _⟩ => ⟨S_, .f32⟩
  | .hbm, ⟨9, _⟩ => ⟨S512x14336, .f32⟩
  | .hbm, ⟨10, _⟩ => ⟨S512x14336, .f32⟩
  | .hbm, ⟨11, _⟩ => ⟨S_, .f32⟩
  | .hbm, ⟨12, _⟩ => ⟨S512x14336, .f32⟩
  | .hbm, ⟨13, _⟩ => ⟨S512x14336, .f32⟩
  | .hbm, ⟨14, _⟩ => ⟨S512x14336, .f32⟩
  | .hbm, ⟨15, _⟩ => ⟨S512x14336, .f32⟩
  | .hbm, ⟨16, _⟩ => ⟨S512x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]

class Facts₀ : Prop where
  slices_S512x28672_S512x14336_0_0 : S512x28672.Slices ![0, 0] S512x14336
  slices_S512x28672_S512x14336_0_14336 : S512x28672.Slices ![0, 14336] S512x14336
  bcast_S_S512x14336 : S_.BroadcastsInDim S512x14336 (![] : Fin 0 → Fin S512x14336.rank)
  dot_S512x4096_S4096x28672_S512x28672_1_0_0_1_n_n_wf : DotDims.WF S512x4096 S4096x28672 S512x28672 [1] [0] [0] [1] [] []
  dot_S512x14336_S14336x4096_S512x4096_1_0_0_1_n_n_wf : DotDims.WF S512x14336 S14336x4096 S512x4096 [1] [0] [0] [1] [] []

variable [Facts₀]

def dot_S512x4096_S4096x28672_S512x28672_1_0_0_1_n_n : DotDims S512x4096 S4096x28672 S512x28672 where
  lhsContracting := [1]
  rhsContracting := [0]
  lhsNonContracting := [0]
  rhsNonContracting := [1]
  lhsBatch := []
  rhsBatch := []
  wf := dot_S512x4096_S4096x28672_S512x28672_1_0_0_1_n_n_wf
def dot_S512x14336_S14336x4096_S512x4096_1_0_0_1_n_n : DotDims S512x14336 S14336x4096 S512x4096 where
  lhsContracting := [1]
  rhsContracting := [0]
  lhsNonContracting := [0]
  rhsNonContracting := [1]
  lhsBatch := []
  rhsBatch := []
  wf := dot_S512x14336_S14336x4096_S512x4096_1_0_0_1_n_n_wf

class Facts : Prop extends Facts₀ where

variable [Facts]
-- ==== Proof.K.Reg0.lean ====
/-
  REGION 0, the gate/up projection with SwiGLU: its proof data and its body obligation, at any float instance.

  Grid: 56 points; point i reads the whole of x, columns [256 i, 256 i + 256) of the gate half of w and the same columns
  of the up half (two windows on the one array w, at block columns i and 56 + i), and writes columns [256 i, 256 i + 256)
  of the hidden array. The body is one store of one pure function of the three loaded blocks.
-/
import proofs.«170557_j678604833229_1_alg».proof.Proof.Gen.Kernel.Launch
import proofs.«170557_j678604833229_1_alg».proof.Proof.Gen.Kernel.Skeleton
import proofs.«170557_j678604833229_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: a parameter, which the run instantiates
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The proof data -/

/-- Region 0's proof data on core `c`: the arrays as the region finds them; after the body each input buffer still at
    its block and the output buffer at the body's one stored value, a function of the three input blocks; nothing kept
    between points; the two windows that read `w` hold one half share of it each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q w := match w with
    | ⟨0, _⟩ => fullShare
    | ⟨1, _⟩ => fullShare.left
    | ⟨2, _⟩ => fullShare.right
    | ⟨3, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
/-- What the body leaves in the output window's buffer at point `t`: the stored value of the point's three blocks. -/
theorem after0_3 (c : Dev nD) (t : Fin cfg0.N) :
    (dat0 V c).after 3 t = k0_pay1 (iblk0 V c 0 t) (iblk0 V c 1 t) (iblk0 V c 2 t) := by dsimp only [dat0]

theorem Phi0 (c : Dev nD) (t : Fin (cfg0.N + 1)) : (dat0 V c).Φ t = Pipeline.ΦA spec0 c := rfl
theorem owed0 (c : Dev nD) (t : Fin (cfg0.N + 1)) : (dat0 V c).owed t = 0 := rfl
theorem q0_0 (c : Dev nD) : (dat0 V c).q 0 = fullShare := rfl
theorem q0_1 (c : Dev nD) : (dat0 V c).q 1 = fullShare.left := rfl
theorem q0_2 (c : Dev nD) : (dat0 V c).q 2 = fullShare.right := rfl
theorem q0_3 (c : Dev nD) : (dat0 V c).q 3 = fullShare := rfl

/-! ## What the body finds in each input window's buffer -/

/-- The offsets of every whole-buffer access of the body are zero. -/
theorem offs_zero0 : (![0, 0] : Fin 2 → Nat) = fun _ => 0 := by
  funext a; fin_cases a <;> rfl

/-- The activation window's buffer holds the whole of `x` at every point: it is filled at the first point and its
    block index never moves afterwards. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The gate window's buffer holds the point's column block of the gate half of `w`. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The up window's buffer holds the point's column block of the up half of `w`. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body's run on whole buffers -/

/-- The rectangle of the body's one store: the whole output buffer. -/
abbrev rOut0 : Rect S512x256 := Rect.unit (s := S512x256) ![0, 0] S512x256.size inb_S512x256_S512x256_0_0

/-- One store through it tiles the buffer with a single tile, so it covers it. -/
theorem cover0_3 (p : Vec F S512x256 .bf16) (y : S512x256.Idx) :
    ∃ pc ∈ ([⟨rOut0, p⟩] : List (View.Piece (Elt F) S512x256 .bf16)), y ∈ pc.1.set :=
  View.cover_of_tiled [⟨rOut0, p⟩] S512x256.size (by rfl) y

set_option maxHeartbeats 1000000 in
/-- The kernel function on whole buffers: the three inputs at read contents `x0`, `x1`, `x2`, the output at anything.
    It loads the four buffers and stores the one pure function of the three inputs over the whole output buffer; the
    inputs are left as they were. -/
theorem run_kernel0 (c : Dev nD) (E : Set ℕ) (i : grid0.Coords)
    (a1 : Memref sig .tc .vmem S512x4096 .f32) (h1 : a1.IsWhole)
    (a2 : Memref sig .tc .vmem S4096x256 .f32) (h2 : a2.IsWhole)
    (a3 : Memref sig .tc .vmem S4096x256 .f32) (h3 : a3.IsWhole)
    (a4 : Memref sig .tc .vmem S512x256 .bf16) (h4 : a4.IsWhole)
    (x0 : Vec F S512x4096 .f32) (x1 x2 : Vec F S4096x256 .f32) (K : PUnit → sProp 𝕄) :
    iprop(owns (c : Thread nD τ) a1 fullShare x0 ∗ owns (c : Thread nD τ) a2 fullShare x1
        ∗ owns (c : Thread nD τ) a3 fullShare x2 ∗ (∃ d, owns (c : Thread nD τ) a4 fullShare d)
        ∗ (iprop(owns (c : Thread nD τ) a1 fullShare x0 ∗ owns (c : Thread nD τ) a2 fullShare x1
            ∗ owns (c : Thread nD τ) a3 fullShare x2 ∗ owns (c : Thread nD τ) a4 fullShare (k0_pay1 x0 x1 x2)) -∗ K ⟨⟩))
      ⊢ wp frame (wpE (defs₀ (F := F)) Variants.none c none) E (cc0__gate_up_kernel i a1 h1 a2 h2 a3 h3 a4 h4) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover0_3 _), View.canon_unit_zero offs_zero0]
  simp only [View.readAt_eq_ld]
  rw [View.ld_unit_zero (S := S512x4096) offs_zero0, View.ld_unit_zero (S := S4096x256) offs_zero0,
    View.ld_unit_zero (S := S4096x256) offs_zero0]

/-! ## The body obligation -/

/-- What the body is handed at point `t`: the invariant, what the core owes, and each window's current buffer at what
    it then holds. -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back: the same invariant and debt, each buffer at what the body leaves in it. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three input buffers hold their blocks (`before0_W`), the output buffer holds something,
    so the run on whole buffers applies; the invariant and the debt, the same at every point, pass through unread. -/
theorem body_at0 (c : Dev nD) (t : Fin cfg0.N) :
    handed0 V c t ⊢ wp frame (wpE (defs₀ (F := F)) Variants.none c none) Set.univ (bodyAt0 t) (fun _ => returned0 V c t) := by
  unfold handed0 returned0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (run_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for region 0, at every point. -/
theorem body_obligation0 (c : Dev nD) : BodyObligation (dat0 (F := F) V c) (defs₀ (F := F)) Variants.none () Set.univ := fun t => by
  rw [bigSep_W0, bigSep_W0]
  exact body_at0 V c t

end Cert.Kernel.Hand

end
-- ==== Proof.K.Reg1.lean ====
/-
  REGION 1, the down projection accumulated over the intermediate axis: its proof data and its body obligation, at any
  float instance.

  Grid: 56 points; point k reads columns [256 k, 256 k + 256) of the hidden array and rows [256 k, 256 k + 256) of wd. A
  scratch accumulator of the output's shape is carried from point to point: zeroed at the first point, then at every
  point replaced by itself plus the point's partial product; at the last point it is copied to the output window, which is
  written back there only.
-/
import proofs.«170557_j678604833229_1_alg».proof.Proof.Gen.Kernel.Launch
import proofs.«170557_j678604833229_1_alg».proof.Proof.Gen.Kernel.Skeleton
import proofs.«170557_j678604833229_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: a parameter, which the run instantiates
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The carried accumulator -/

/-- The scratch accumulator as a memref: a whole scoped buffer of the kernel's own. -/
abbrev scM1 : Memref sig .tc .vmem S512x4096 .f32 := Memref.whole cc1_scratch0

/-- What the accumulator holds after the body at grid position `n`: at the first point the zero fill plus the first
    partial product, afterwards what the point before left plus this point's partial product. -/
def acc1 (c : Dev nD) : (n : ℕ) → n < cfg1.N → Vec F S512x4096 .f32
  | 0, h => k1_pay2 (iblk1 V c 0 ⟨0, h⟩) (iblk1 V c 1 ⟨0, h⟩) (k1_pay1 (F := F))
  | n + 1, h => k1_pay2 (iblk1 V c 0 ⟨n + 1, h⟩) (iblk1 V c 1 ⟨n + 1, h⟩) (acc1 c n (Nat.lt_of_succ_lt h))

theorem acc1_zero (c : Dev nD) (h : 0 < cfg1.N) :
    acc1 V c 0 h = k1_pay2 (iblk1 V c 0 ⟨0, h⟩) (iblk1 V c 1 ⟨0, h⟩) (k1_pay1 (F := F)) := rfl
theorem acc1_succ (c : Dev nD) (n : ℕ) (h : n + 1 < cfg1.N) :
    acc1 V c (n + 1) h = k1_pay2 (iblk1 V c 0 ⟨n + 1, h⟩) (iblk1 V c 1 ⟨n + 1, h⟩) (acc1 V c n (Nat.lt_of_succ_lt h)) := rfl

/-- The region invariant before position `n`: before the first point the class's (every scoped buffer no window stages
    at anything, the generator register at some state); afterwards the same with the accumulator at what the point
    before left in it. -/
def PhiS1 (c : Dev nD) : (n : ℕ) → n ≤ cfg1.N → sProp 𝕄
  | 0, _ => Pipeline.ΦA spec1 c
  | n + 1, hn => iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ owns (c : Thread nD τ) scM1 fullShare (acc1 V c n hn)
      ∗ (∃ r, prngReg c r))

/-! ## The proof data -/

/-- Region 1's proof data on core `c`: the arrays as the region finds them; after the body each input buffer still at
    its block, the output buffer at the accumulator's contents (read only at the last point, the one point that stores it
    and writes it back); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
/-- What the output window's buffer holds after the body at the point that stores it: the accumulator. -/
theorem after1_2 (c : Dev nD) (t : Fin cfg1.N) : (dat1 V c).after 2 t = acc1 V c t.val t.isLt := by dsimp only [dat1]

theorem owed1 (c : Dev nD) (t : Fin (cfg1.N + 1)) : (dat1 V c).owed t = 0 := rfl
theorem q1 (c : Dev nD) (w : Fin cfg1.W) : (dat1 V c).q w = fullShare := rfl

/-! ## The invariant's two forms -/

theorem PhiS1_zero (c : Dev nD) (n : ℕ) (h : n ≤ cfg1.N) (hz : n = 0) : PhiS1 V c n h = Pipeline.ΦA spec1 c := by
  subst hz; rfl

/-- The invariant after a point as a function of what the accumulator holds: the seven scoped buffers of the other
    region at anything, the accumulator at `X`, the generator register at some state. -/
def chain1 (c : Dev nD) (X : Vec F S512x4096 .f32) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ owns (c : Thread nD τ) scM1 fullShare X
      ∗ (∃ r, prngReg c r))

/-- After point `n` (before point `n + 1`): the accumulator at that point's contents. -/
theorem PhiS1_succ (c : Dev nD) (n : ℕ) (hn : n < cfg1.N) :
    PhiS1 V c (n + 1) hn = chain1 c (acc1 V c n hn) := rfl

/-- Before a point that is not the first: the accumulator at what the point before left. -/
theorem PhiS1_pos (c : Dev nD) (n : ℕ) (h : n ≤ cfg1.N) (hz : n ≠ 0) :
    PhiS1 V c n h = chain1 c (acc1 V c (n - 1) (by omega)) := by
  cases n with
  | zero => exact absurd rfl hz
  | succ n => rfl

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After any point but the first the invariant gives the class's back: the accumulator's named contents are
    forgotten (an owned whole memref at named contents is its buffer's points-to at them). -/
theorem PhiS1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  unfold chain1 Pipeline.ΦA; rw [scopedRest1_eq]
  simp only [scM1, owns_whole]
  iintro ⟨H1, H2, H3, H4, H5, H6, H7, HS, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact HS
  iexact Hg

/-- After the last point the invariant gives the class's back: the accumulator's named contents are forgotten. -/
theorem hout1 (c : Dev nD) : (dat1 V c).Φ (Fin.last cfg1.N) ⊢ Pipeline.ΦA spec1 c :=
  PhiS1_out V c _ (by rw [Fin.val_last]; have : cfg1.N = 56 := N_1; omega)

/-! ## The body's branch conditions, in closed form over the grid -/

/-- The condition of the first `scf.if` (the zero fill), from the grid coordinates. -/
abbrev cond1_0 (i : grid1.Coords) : Prop :=
  (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The condition of the second `scf.if` (the copy to the output window). -/
abbrev cond1_1 (i : grid1.Coords) : Prop := k1_cond2 i = 1#1
/-- It holds at the last point only. -/
theorem hcond1_1 : ∀ t : Fin cfg1.N, cond1_1 (grid1.coords t) ↔ t.val = 55 :=
  (by decide +kernel : ∀ t : Fin grid1.N, cond1_1 (grid1.coords t) ↔ t.val = 55)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- The output window is idle, and not written back, at every point but the last; live at the last. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The body on whole memrefs, case by case -/

/-- The zero offsets of the whole-buffer rectangles, however spelt. -/
theorem hz2 : (![0, 0] : Fin 2 → ℕ) = fun _ => 0 := by funext a; fin_cases a <;> rfl

/-- After a last store through the whole-shape rectangle at zero offsets the buffer reads that store's payload,
    whatever was written before and whatever the buffer held: the one piece covers every index. -/
theorem read_writes_cons_unit_zero {sg : RefSig} {κ : Kind} {sp : Space} {S : Shape} {e : EltTy} {Val : EltTy → Type}
    [∀ e, Nonempty (Val e)] (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

set_option maxHeartbeats 1000000 in
/-- At the first point: the accumulator, found at anything, is zero-filled and then replaced by the fill plus the
    point's partial product; the output buffer is handed back as found. -/
theorem run1_A (c : Dev nD) (i : grid1.Coords)
    (arg1 : Memref sig .tc .vmem S512x256 .bf16) (harg1 : arg1.IsWhole)
    (arg2 : Memref sig .tc .vmem S256x4096 .f32) (harg2 : arg2.IsWhole)
    (arg3 : Memref sig .tc .vmem S512x4096 .f32) (harg3 : arg3.IsWhole)
    (arg4 : Memref sig .tc .vmem S512x4096 .f32) (harg4 : arg4.IsWhole)
    (hc0 : cond1_0 i) (hc1 : ¬cond1_1 i)
    (x0 : Vec F S512x256 .bf16) (x1 : Vec F S256x4096 .f32) (xi2 : Vec F S512x4096 .f32)
    (E : Set ℕ) (K : PUnit → sProp 𝕄) :
    iprop(owns (c : Thread nD τ) arg1 fullShare x0 ∗ owns (c : Thread nD τ) arg2 fullShare x1
        ∗ owns (c : Thread nD τ) arg3 fullShare xi2 ∗ (∃ d, owns (c : Thread nD τ) arg4 fullShare d)
        ∗ (iprop(owns (c : Thread nD τ) arg1 fullShare x0 ∗ owns (c : Thread nD τ) arg2 fullShare x1
            ∗ owns (c : Thread nD τ) arg3 fullShare xi2
            ∗ owns (c : Thread nD τ) arg4 fullShare (k1_pay2 x0 x1 (k1_pay1 (F := F)))) -∗ K ⟨⟩))
      ⊢ wp frame (wpE (defs₀ (F := F)) Variants.none c none) E (cc1__down_kernel i arg1 harg1 arg2 harg2 arg3 harg3 arg4 harg4) K := by
  simp only [cc1__down_kernel_eq_skeleton]; unfold cc1__down_kernel_skel
  unfold owns
  iintro ⟨⟨%f0, %hf0, H0⟩, ⟨%f1, %hf1, H1⟩, ⟨%f2, %hf2, H2⟩, ⟨%ds0, %fs0, -, HS0⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS0
  ipureintro
  sl_unfold_words
  rw [read_writes_cons_unit_zero (S := S512x4096) _ _ hz2]
  simp only [View.readAt_eq_ld, harg1.read_unread, harg2.read_unread, View.ld_unit_zero (S := S512x256) hz2,
    View.ld_unit_zero (S := S256x4096) hz2, View.readCov_unit_zero (S := S512x4096) _ hz2]

set_option maxHeartbeats 1000000 in
/-- At a point that is neither the first nor the last: the accumulator, found at `xs`, is replaced by `xs` plus the
    point's partial product; the output buffer is handed back as found. -/
theorem run1_B (c : Dev nD) (i : grid1.Coords)
    (arg1 : Memref sig .tc .vmem S512x256 .bf16) (harg1 : arg1.IsWhole)
    (arg2 : Memref sig .tc .vmem S256x4096 .f32) (harg2 : arg2.IsWhole)
    (arg3 : Memref sig .tc .vmem S512x4096 .f32) (harg3 : arg3.IsWhole)
    (arg4 : Memref sig .tc .vmem S512x4096 .f32) (harg4 : arg4.IsWhole)
    (hc0 : ¬cond1_0 i) (hc1 : ¬cond1_1 i)
    (x0 : Vec F S512x256 .bf16) (x1 : Vec F S256x4096 .f32) (xi2 : Vec F S512x4096 .f32) (xs : Vec F S512x4096 .f32)
    (E : Set ℕ) (K : PUnit → sProp 𝕄) :
    iprop(owns (c : Thread nD τ) arg1 fullShare x0 ∗ owns (c : Thread nD τ) arg2 fullShare x1
        ∗ owns (c : Thread nD τ) arg3 fullShare xi2 ∗ owns (c : Thread nD τ) arg4 fullShare xs
        ∗ (iprop(owns (c : Thread nD τ) arg1 fullShare x0 ∗ owns (c : Thread nD τ) arg2 fullShare x1
            ∗ owns (c : Thread nD τ) arg3 fullShare xi2
            ∗ owns (c : Thread nD τ) arg4 fullShare (k1_pay2 x0 x1 xs)) -∗ K ⟨⟩))
      ⊢ wp frame (wpE (defs₀ (F := F)) Variants.none c none) E (cc1__down_kernel i arg1 harg1 arg2 harg2 arg3 harg3 arg4 harg4) K := by
  simp only [cc1__down_kernel_eq_skeleton]; unfold cc1__down_kernel_skel
  unfold owns
  iintro ⟨⟨%f0, %hf0, H0⟩, ⟨%f1, %hf1, H1⟩, ⟨%f2, %hf2, H2⟩, ⟨%fs0, %hfs0, HS0⟩, Hk⟩
  obtain rfl := harg1.eq_unread hf0; obtain rfl := harg2.eq_unread hf1; obtain rfl := harg3.eq_unread hf2
  obtain rfl := harg4.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS0
  ipureintro
  sl_unfold_words
  rw [read_writes_cons_unit_zero (S := S512x4096) _ _ hz2]
  simp only [View.readAt_eq_ld, harg1.read_unread, harg2.read_unread, harg4.read_unread, View.ld_unit_zero (S := S512x256) hz2,
    View.ld_unit_zero (S := S256x4096) hz2, View.ld_unit_zero (S := S512x4096) hz2]

set_option maxHeartbeats 1000000 in
/-- At the last point: the accumulator, found at `xs`, is replaced by `xs` plus the point's partial product, and the
    output buffer, found at anything, is stored whole with the accumulator's new contents. -/
theorem run1_C (c : Dev nD) (i : grid1.Coords)
    (arg1 : Memref sig .tc .vmem S512x256 .bf16) (harg1 : arg1.IsWhole)
    (arg2 : Memref sig .tc .vmem S256x4096 .f32) (harg2 : arg2.IsWhole)
    (arg3 : Memref sig .tc .vmem S512x4096 .f32) (harg3 : arg3.IsWhole)
    (arg4 : Memref sig .tc .vmem S512x4096 .f32) (harg4 : arg4.IsWhole)
    (hc0 : ¬cond1_0 i) (hc1 : cond1_1 i)
    (x0 : Vec F S512x256 .bf16) (x1 : Vec F S256x4096 .f32) (xs : Vec F S512x4096 .f32)
    (E : Set ℕ) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare (k1_pay2 x0 x1 xs)
            ∗ owns (c : Thread nD τ) arg4 fullShare (k1_pay2 x0 x1 xs)) -∗ K ⟨⟩))
      ⊢ wp frame (wpE (defs₀ (F := F)) Variants.none c none) E (cc1__down_kernel i arg1 harg1 arg2 harg2 arg3 harg3 arg4 harg4) K := by
  simp only [cc1__down_kernel_eq_skeleton]; unfold cc1__down_kernel_skel
  unfold owns
  iintro ⟨⟨%f0, %hf0, H0⟩, ⟨%f1, %hf1, H1⟩, ⟨%d2, %f2, -, H2⟩, ⟨%fs0, %hfs0, HS0⟩, Hk⟩
  obtain rfl := harg1.eq_unread hf0; obtain rfl := harg2.eq_unread hf1
  obtain rfl := harg4.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_words
    rw [read_writes_cons_unit_zero (S := S512x4096) _ _ hz2]
    simp only [View.readAt_eq_ld, harg1.read_unread, harg2.read_unread, harg4.read_unread, View.ld_unit_zero (S := S512x256) hz2,
      View.ld_unit_zero (S := S256x4096) hz2, View.ld_unit_zero (S := S512x4096) hz2, View.readCov_unit_zero (S := S512x4096) _ hz2]
  iexists _; isplitr
  swap; · iexact HS0
  ipureintro
  sl_unfold_words
  rw [read_writes_cons_unit_zero (S := S512x4096) _ _ hz2]
  simp only [View.readAt_eq_ld, harg1.read_unread, harg2.read_unread, harg4.read_unread, View.ld_unit_zero (S := S512x256) hz2,
    View.ld_unit_zero (S := S256x4096) hz2, View.ld_unit_zero (S := S512x4096) hz2]

/-! ## What the body finds in the input windows' buffers, and the accumulator's recursion at a point -/

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The accumulator after the first point. -/
theorem acc1_first (c : Dev nD) (t : Fin cfg1.N) (h0 : t.val = 0) :
    acc1 V c t.val t.isLt = k1_pay2 (iblk1 V c 0 t) (iblk1 V c 1 t) (k1_pay1 (F := F)) := by
  obtain ⟨n, hn⟩ := t
  cases n with
  | zero => rfl
  | succ n => exact absurd h0 (Nat.succ_ne_zero _)

/-- The accumulator after a later point, over what the point before left. -/
theorem acc1_later (c : Dev nD) (t : Fin cfg1.N) (h0 : t.val ≠ 0) :
    acc1 V c t.val t.isLt
      = k1_pay2 (iblk1 V c 0 t) (iblk1 V c 1 t) (acc1 V c (t.val - 1) (Nat.lt_of_le_of_lt (Nat.sub_le _ _) t.isLt)) := by
  obtain ⟨n, hn⟩ := t
  cases n with
  | zero => exact absurd rfl h0
  | succ n => rfl

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point, by the three cases of the point's position. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl]
  have hN : t.val < 56 := lt_of_lt_of_eq t.isLt (show cfg1.N = 56 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  by_cases h0 : t.val = 0
  · -- the first point: the accumulator found at anything
    have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1)]
    rw [PhiS1_castSucc V c t, PhiS1_zero V c _ _ h0, PhiS1_succ, acc1_first V c t h0]
    unfold chain1 Pipeline.ΦA; rw [scopedRest1_eq]
    iintro ⟨⟨⟨R1, R2, R3, R4, R5, R6, R7, ⟨%fs, HS⟩⟩, Hg⟩, Ho, ⟨%d0, H0⟩, ⟨%d1, H1⟩, ⟨%d2, H2⟩⟩
    iapply (run1_A c (grid1.coords t) _ _ _ _ _ _ _ _ hc0 hc1 (iblk1 V c 0 t) (iblk1 V c 1 t) _ Set.univ _)
    isplitl [H0]; · iexact H0
    isplitl [H1]; · iexact H1
    isplitl [H2]; · iexact H2
    isplitl [HS]
    · iexists fs; rw [owns_whole]; iexact HS
    iintro ⟨H0, H1, H2, HS⟩
    isplitl [R1 R2 R3 R4 R5 R6 R7 HS Hg]
    · isplitl [R1]; · iexact R1
      isplitl [R2]; · iexact R2
      isplitl [R3]; · iexact R3
      isplitl [R4]; · iexact R4
      isplitl [R5]; · iexact R5
      isplitl [R6]; · iexact R6
      isplitl [R7]; · iexact R7
      isplitl [HS]; · iexact HS
      iexact Hg
    isplitl [Ho]; · iexact Ho
    isplitl [H0]; · iexact H0
    isplitl [H1]; · iexact H1
    iexists _; iexact H2
  · have hc0 : ¬cond1_0 (grid1.coords t) := fun h => h0 ((hcond1_0 t).mp h)
    by_cases h1 : t.val = 55
    · -- the last point: the accumulator's new contents are copied to the output buffer
      have hc1 : cond1_1 (grid1.coords t) := (hcond1_1 t).mpr h1
      rw [show (dat1 V c).leavesExact 2 t = owns (c : Thread nD τ) (st1_2 t) fullShare ((dat1 V c).after 2 t) from by
        unfold Dat.leavesExact; rw [liveAt1_2 t hc1], after1_2]
      rw [PhiS1_castSucc V c t, PhiS1_pos V c _ _ h0, PhiS1_succ, acc1_later V c t h0]
      unfold chain1
      iintro ⟨⟨R1, R2, R3, R4, R5, R6, R7, HS, Hg⟩, Ho, ⟨%d0, H0⟩, ⟨%d1, H1⟩, ⟨%d2, H2⟩⟩
      iapply (run1_C c (grid1.coords t) _ _ _ _ _ _ _ _ hc0 hc1 (iblk1 V c 0 t) (iblk1 V c 1 t)
        (acc1 V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [R1 R2 R3 R4 R5 R6 R7 HS Hg]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [HS]; · iexact HS
        iexact Hg
      isplitl [Ho]; · iexact Ho
      isplitl [H0]; · iexact H0
      isplitl [H1]; · iexact H1
      iexact H2
    · -- a point between: the output buffer is handed back as found
      have hc1 : ¬cond1_1 (grid1.coords t) := fun h => h1 ((hcond1_1 t).mp h)
      rw [Dat.leavesExact_idle (dat1 V c) 2 t (idleAt1_2 t hc1) (noFlush1_2 t hc1)]
      rw [PhiS1_castSucc V c t, PhiS1_pos V c _ _ h0, PhiS1_succ, acc1_later V c t h0]
      unfold chain1
      iintro ⟨⟨R1, R2, R3, R4, R5, R6, R7, HS, Hg⟩, Ho, ⟨%d0, H0⟩, ⟨%d1, H1⟩, ⟨%d2, H2⟩⟩
      iapply (run1_B c (grid1.coords t) _ _ _ _ _ _ _ _ hc0 hc1 (iblk1 V c 0 t) (iblk1 V c 1 t) _
        (acc1 V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [R1 R2 R3 R4 R5 R6 R7 HS Hg]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [HS]; · iexact HS
        iexact Hg
      isplitl [Ho]; · iexact Ho
      isplitl [H0]; · iexact H0
      isplitl [H1]; · iexact H1
      iexists _; iexact H2

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Share0.lean ====
/-
  REGION 0's arrays among the core's unscoped buffers, when two of its windows read ONE array.

  Windows 1 and 2 of region 0 both read the array w (at different column blocks); windows 0 and 3 have arrays of their
  own (x, and the hidden array the region writes). The core holds every unscoped buffer whole, at the full share; the
  pipeline wants one points-to per WINDOW, each at the window's share. So at entry the full share of w is split into
  its left and right halves, one per reading window, and at exit the two halves — both still at w's entry contents, an
  input array being never written — are joined back into the full share.
-/
import proofs.«170557_j678604833229_1_alg».proof.Proof.Gen.Kernel.Launch
import proofs.«170557_j678604833229_1_alg».proof.Proof.Gen.Kernel.Skeleton
import proofs.«170557_j678604833229_1_alg».proof.Proof.Gen.Kernel.Points
import proofs.«170557_j678604833229_1_alg».proof.Proof.K.Reg0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: a parameter, which the run instantiates
variable (V : (c : Dev nD) → (b : Ref sig .tc) → Buf (Elt F) ((c : Thread nD τ).loc b))

/-! ## The buffers behind the arrays -/

/-- The distinct buffers behind region 0's four windows are three: x, w (read by windows 1 and 2) and the hidden array. -/
theorem arrImage0 : Finset.univ.image (Pipeline.arrRef spec0) = {main_arg0, main_arg1, main_v0} := by decide

/-- The buffers behind the arrays, each whole at the full share, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0)
          ∗ (((c : Thread nD τ).loc main_arg1) ↦{fullShare} W main_arg1)
          ∗ (((c : Thread nD τ).loc main_v0) ↦{fullShare} W main_v0)) := by
  unfold Pipeline.arrBufs
  rw [arrImage0, bigSep_insert (by decide), bigSep_insert (by decide), bigSep_singleton]
  rfl

/-- The shares the core holds the four arrays at: x and the hidden array whole, w's left half for window 1 and its
    right half for window 2. -/
theorem share0_0 (c : Dev nD) : (dat0 V c).share 0 = fullShare := rfl
theorem share0_1 (c : Dev nD) : (dat0 V c).share 1 = fullShare.left := rfl
theorem share0_2 (c : Dev nD) : (dat0 V c).share 2 = fullShare.right := rfl
theorem share0_3 (c : Dev nD) : (dat0 V c).share 3 = fullShare := rfl

/-- The pipeline's arrays window by window: every array is a whole buffer, so each points-to is of all its elements. -/
theorem arrays0_eq (c : Dev nD)
    (Fa : (w : Fin cfg0.W) → Buf (Elt F) ((cfg0.spec w).arr.view.loc (c : Thread nD τ))) :
    ((dat0 V c).arrays Fa : sProp 𝕄)
      = iprop((((c : Thread nD τ).loc main_arg0) ↦{fullShare} Fa 0)
          ∗ (((c : Thread nD τ).loc main_arg1) ↦{fullShare.left} Fa 1)
          ∗ (((c : Thread nD τ).loc main_arg1) ↦{fullShare.right} Fa 2)
          ∗ (((c : Thread nD τ).loc main_v0) ↦{fullShare} Fa 3)) := by
  unfold Dat.arrays
  rw [bigSep_W0, (arr_whole0 0).set_eq_univ, (arr_whole0 1).set_eq_univ, (arr_whole0 3).set_eq_univ,
    share0_0, share0_1, share0_2, share0_3]

/-! ## The full share of w dealt between its two windows, and back -/

/-- The buffers behind the arrays, whole at contents `W`, are the pipeline's arrays at the same contents: the full share
    of w is split into its halves, one for each window that reads it. -/
theorem arrays_of_arrBufs0 (c : Dev nD) (W : (b : Ref sig .tc) → Buf (Elt F) ((c : Thread nD τ).loc b))
    (Fa : (w : Fin cfg0.W) → Buf (Elt F) ((cfg0.spec w).arr.view.loc (c : Thread nD τ)))
    (hF : ∀ w, Fa w = W (Pipeline.arrRef spec0 w)) :
    (Pipeline.arrBufs (Ix := Unit) (Name := ℕ) (U := UR sig nD τ) (Lvl := ℕ) spec0 c W : sProp 𝕄) ⊢ (dat0 V c).arrays Fa := by
  rw [arrBufs0_eq, arrays0_eq, hF 0, hF 1, hF 2, hF 3]
  iintro ⟨H0, H1, H3⟩
  ihave H1 := (pointsTo_share (PosShare.mem_left_op_right fullShare)).1 $$ H1
  icases H1 with ⟨H1l, H1r⟩
  isplitl [H0]; · iexact H0
  isplitl [H1l]; · iexact H1l
  isplitl [H1r]; · iexact H1r
  iexact H3

/-- The pipeline's arrays at contents that agree with `W` — so the two windows on w hold ONE contents — are the buffers
    behind the arrays whole at `W`: the two halves of w join into its full share. -/
theorem arrBufs_of_arrays0 (c : Dev nD) (W : (b : Ref sig .tc) → Buf (Elt F) ((c : Thread nD τ).loc b))
    (Fa : (w : Fin cfg0.W) → Buf (Elt F) ((cfg0.spec w).arr.view.loc (c : Thread nD τ)))
    (hF : ∀ w, Fa w = W (Pipeline.arrRef spec0 w)) :
    ((dat0 V c).arrays Fa : sProp 𝕄) ⊢ Pipeline.arrBufs (Ix := Unit) (Name := ℕ) (U := UR sig nD τ) (Lvl := ℕ) spec0 c W := by
  rw [arrBufs0_eq, arrays0_eq, hF 0, hF 1, hF 2, hF 3]
  iintro ⟨H0, H1l, H1r, H3⟩
  ihave H1 := (pointsTo_share (PosShare.mem_left_op_right fullShare)).2 $$ [H1l H1r]
  · isplitl [H1l]; · iexact H1l
    iexact H1r
  isplitl [H0]; · iexact H0
  isplitl [H1]; · iexact H1
  iexact H3

/-- The core's unscoped buffers are the buffers behind region 0's arrays and the rest. -/
theorem unscopedBufs_split0 (c : Dev nD) (W : (b : Ref sig .tc) → Buf (Elt F) ((c : Thread nD τ).loc b)) :
    (unscopedBufs c W : sProp 𝕄)
      = iprop(Pipeline.arrBufs (Ix := Unit) (Name := ℕ) (U := UR sig nD τ) (Lvl := ℕ) spec0 c W
          ∗ Pipeline.unscopedRest (Ix := Unit) (Name := ℕ) (U := UR sig nD τ) (Lvl := ℕ) spec0 c W) :=
  Pipeline.unscopedBufs_split₀ (fun _ : Unit => cfg0) () winFacts₀0.arr_unscoped c W

/-! ## Entry and exit -/

/-- ENTRY: the core's unscoped buffers at contents `V c` are region 0's arrays at the proof data's entry contents,
    each window at its share, and the unscoped buffers that are no window's array. -/
theorem arrays_of_unscopedBufs0 (c : Dev nD) :
    (unscopedBufs c (V c) : sProp 𝕄)
      ⊢ iprop((dat0 V c).arrays ((dat0 V c).arrAt · 0)
          ∗ Pipeline.unscopedRest (Ix := Unit) (Name := ℕ) (U := UR sig nD τ) (Lvl := ℕ) spec0 c (V c)) := by
  rw [unscopedBufs_split0]
  exact sep_mono (arrays_of_arrBufs0 V c (V c) _ fun w => A_eq0 V c w) .rfl

/-- EXIT: region 0's arrays at contents `Fa` — where the two windows on `w` hold the same contents — and the unscoped
    rest at `V c` are the core's unscoped buffers at any valuation `V'` that has each array at its window's contents and
    agrees with `V c` off the arrays. -/
theorem unscopedBufs_of_arrays0 (c : Dev nD) (V' : (b : Ref sig .tc) → Buf (Elt F) ((c : Thread nD τ).loc b))
    (Fa : (w : Fin cfg0.W) → Buf (Elt F) ((cfg0.spec w).arr.view.loc (c : Thread nD τ)))
    (hF : ∀ w, Fa w = V' (Pipeline.arrRef spec0 w))
    (hrest : ∀ b, b ∉ Finset.univ.image (Pipeline.arrRef spec0) → V' b = V c b) :
    iprop((dat0 V c).arrays Fa
        ∗ Pipeline.unscopedRest (Ix := Unit) (Name := ℕ) (U := UR sig nD τ) (Lvl := ℕ) spec0 c (V c))
      ⊢ (unscopedBufs c V' : sProp 𝕄) := by
  rw [unscopedBufs_split0]
  refine sep_mono (arrBufs_of_arrays0 V c V' Fa hF) (Entails.of_eq ?_)
  unfold Pipeline.unscopedRest
  exact bigSep_congr fun b hb => by rw [hrest b (Finset.mem_sdiff.mp hb).2]

end Cert.Kernel.Hand

end
-- ==== Proof.K.Run.lean ====
/-
  THE RUN of the two-region program, at any float instance: from any memory with zero counters every weakly fair execution
  of @main terminates, nothing faulting, and the final memory holds every unscoped buffer at a named valuation:
  the launch contents, updated at the hidden array by what region 0's write-backs leave there, then at the result array
  by what region 1's write-back leaves there. The arguments are never written, so they end as launched; the result is
  region 1's output array after its last point.

  @main is two kernel regions and no host operation. Between the items a core's thread state is "every unscoped buffer
  whole at the boundary's valuation, the generator register at some state, nothing owed". Region 0 reads the weight array
  through two windows, so its entry and exit split and rejoin that array's share; region 1's arrays are distinct.
-/
import proofs.«170557_j678604833229_1_alg».proof.Proof.Gen.Kernel.Launch
import proofs.«170557_j678604833229_1_alg».proof.Proof.Gen.Kernel.Skeleton
import proofs.«170557_j678604833229_1_alg».proof.Proof.Gen.Kernel.Points
import proofs.«170557_j678604833229_1_alg».proof.Proof.K.Reg0
import proofs.«170557_j678604833229_1_alg».proof.Proof.K.Reg1
import proofs.«170557_j678604833229_1_alg».proof.Proof.K.Share0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: a parameter, which the run instantiates
variable (V : (c : Dev nD) → (b : Ref sig .tc) → Buf (Elt F) ((c : Thread nD τ).loc b))

variable (m : (ℓ : Loc nD τ sig) → Buf (Elt F) ℓ) (ρ : Dev nD → PrngReg)

/-! ## The buffer contents at each boundary -/

/-- Core `c`'s unscoped buffers at launch. -/
abbrev W0 (c : Dev nD) : Valuation τ sig (Elt F) := fun b => m (c, b)
/-- The same read at the TensorCore's references: what region 0's proof data take. -/
abbrev V0 : (c : Dev nD) → (b : Ref sig .tc) → Buf (Elt F) ((c : Thread nD τ).loc b) := fun c b => W0 m c b
/-- After region 0: the hidden array at what the region's write-backs leave, every other buffer as launched. -/
def W1 (c : Dev nD) : Valuation τ sig (Elt F) :=
  Function.update (W0 m c) main_v0 ((dat0 (V0 m) c).arrAt 3 cfg0.N)
/-- The same at the TensorCore's references: what region 1's proof data take. -/
abbrev V1 : (c : Dev nD) → (b : Ref sig .tc) → Buf (Elt F) ((c : Thread nD τ).loc b) := fun c b => W1 m c b
/-- After region 1: the result array at what the region's write-back leaves, every other buffer as before. -/
def W2 (c : Dev nD) : Valuation τ sig (Elt F) :=
  Function.update (W1 m c) main_v1 ((dat1 (V1 m) c).arrAt 2 cfg1.N)
abbrev V2 : (c : Dev nD) → (b : Ref sig .tc) → Buf (Elt F) ((c : Thread nD τ).loc b) := fun c b => W2 m c b

theorem W1_v0 (c : Dev nD) : W1 m c main_v0 = (dat0 (V0 m) c).arrAt 3 cfg0.N := by
  unfold W1; exact Function.update_self ..
theorem W1_of_ne (c : Dev nD) (r : Ref sig .tc) (h : r ≠ main_v0) : W1 m c r = W0 m c r := by
  unfold W1
  exact Function.update_of_ne (StableHlo.devRef_ne_of_ne h : (Proc.devRef .tc r : DevRef τ sig) ≠ Proc.devRef .tc main_v0) ..
theorem W2_v1 (c : Dev nD) : W2 m c main_v1 = (dat1 (V1 m) c).arrAt 2 cfg1.N := by
  unfold W2; exact Function.update_self ..
theorem W2_of_ne (c : Dev nD) (r : Ref sig .tc) (h : r ≠ main_v1) : W2 m c r = W1 m c r := by
  unfold W2
  exact Function.update_of_ne (StableHlo.devRef_ne_of_ne h : (Proc.devRef .tc r : DevRef τ sig) ≠ Proc.devRef .tc main_v1) ..

/-- No region writes an argument: each ends as launched. -/
theorem W2_main_arg0 (c : Dev nD) : W2 m c main_arg0 = m ((c : Thread nD τ).loc main_arg0) :=
  (W2_of_ne m c main_arg0 (by decide)).trans ((W1_of_ne m c main_arg0 (by decide)).trans rfl)
theorem W2_main_arg1 (c : Dev nD) : W2 m c main_arg1 = m ((c : Thread nD τ).loc main_arg1) :=
  (W2_of_ne m c main_arg1 (by decide)).trans ((W1_of_ne m c main_arg1 (by decide)).trans rfl)
theorem W2_main_arg2 (c : Dev nD) : W2 m c main_arg2 = m ((c : Thread nD τ).loc main_arg2) :=
  (W2_of_ne m c main_arg2 (by decide)).trans ((W1_of_ne m c main_arg2 (by decide)).trans rfl)
/-- Region 1 finds the down-projection weights as launched, and the hidden array as region 0 left it. -/
theorem V1_main_arg2 (c : Dev nD) : V1 m c main_arg2 = m ((c : Thread nD τ).loc main_arg2) :=
  (W1_of_ne m c main_arg2 (by decide)).trans rfl
theorem V1_main_v0 (c : Dev nD) : V1 m c main_v0 = (dat0 (V0 m) c).arrAt 3 cfg0.N := W1_v0 m c

/-- At region 0's exit each of its arrays holds what the pipeline leaves: an input array its entry contents, the hidden
    array its write-backs. -/
theorem hF0 (c : Dev nD) (w : Fin cfg0.W) : (dat0 (V0 m) c).arrAt w cfg0.N = V1 m c (Pipeline.arrRef spec0 w) := by
  match w with
  | ⟨0, _⟩ => exact ((dat0 (V0 m) c).arrAt_in 0 rfl _).trans ((A_eq0 (V0 m) c 0).trans (W1_of_ne m c main_arg0 (by decide)).symm)
  | ⟨1, _⟩ => exact ((dat0 (V0 m) c).arrAt_in 1 rfl _).trans ((A_eq0 (V0 m) c 1).trans (W1_of_ne m c main_arg1 (by decide)).symm)
  | ⟨2, _⟩ => exact ((dat0 (V0 m) c).arrAt_in 2 rfl _).trans ((A_eq0 (V0 m) c 2).trans (W1_of_ne m c main_arg1 (by decide)).symm)
  | ⟨3, _⟩ => exact (W1_v0 m c).symm
theorem hrest0 (c : Dev nD) : ∀ b, b ∉ Finset.univ.image (Pipeline.arrRef spec0) → V1 m c b = V0 m c b :=
  fun b hb => W1_of_ne m c b fun e => hb (Finset.mem_image.mpr ⟨3, Finset.mem_univ _, e.symm⟩)

/-- The same for region 1. -/
theorem hF1 (c : Dev nD) (w : Fin cfg1.W) : (dat1 (V1 m) c).arrAt w cfg1.N = V2 m c (Pipeline.arrRef spec1 w) := by
  match w with
  | ⟨0, _⟩ => exact ((dat1 (V1 m) c).arrAt_in 0 rfl _).trans ((A_eq1 (V1 m) c 0).trans (W2_of_ne m c main_v0 (by decide)).symm)
  | ⟨1, _⟩ => exact ((dat1 (V1 m) c).arrAt_in 1 rfl _).trans ((A_eq1 (V1 m) c 1).trans (W2_of_ne m c main_arg2 (by decide)).symm)
  | ⟨2, _⟩ => exact (W2_v1 m c).symm
theorem hrest1 (c : Dev nD) : ∀ b, b ∉ Finset.univ.image (Pipeline.arrRef spec1) → V2 m c b = V1 m c b :=
  fun b hb => W2_of_ne m c b fun e => hb (Finset.mem_image.mpr ⟨2, Finset.mem_univ _, e.symm⟩)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
/-- REGION 0 over the thread state: entered from every unscoped buffer at the launch contents, left at `W1`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit : (unscopedBufs c (V0 m c) : sProp 𝕄)
        ⊢ iprop((pdats m 0 c).arrays ((pdats m 0 c).arrAt · 0)
          ∗ Pipeline.unscopedRest (Ix := Unit) (Name := ℕ) (U := UR sig nD τ) (Lvl := ℕ) spec0 c (V0 m c)) :=
      arrays_of_unscopedBufs0 (V0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N)
          ∗ Pipeline.unscopedRest (Ix := Unit) (Name := ℕ) (U := UR sig nD τ) (Lvl := ℕ) spec0 c (V0 m c))
        ⊢ (unscopedBufs c (V1 m c) : sProp 𝕄) :=
      unscopedBufs_of_arrays0 (V0 m) c (V1 m c) ((dat0 (V0 m) c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W1`, left at `W2`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ (Pipeline.ΦA spec1 c : sProp 𝕄) from by
      unfold Pipeline.ΦA
      iintro ⟨Hp, -, Hr⟩
      isplitl [Hr]; · iexact Hr
      iexact Hp).trans (hin1 (V1 m) c)
  hout c :=
    (hout1 (V1 m) c).trans (show (Pipeline.ΦA spec1 c : sProp 𝕄) ⊢ _ from by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's two items in order. -/
abbrev segs : List (Pipeline.Seg (pcfgs (F := F)) adm (pdats m) () defs₀ 𝒱₀ L lv) :=
  [ .region (reg0 m), .region (reg1 m) ]
/-- @main IS the run of the segments. -/
theorem main_run (c : Dev nD) : main (F := F) c = Pipeline.Seg.run (segs m) :=
  main_segs adm (pdats m) () 𝒱₀ L lv (reg0 m) (reg1 m) c

set_option backward.isDefEq.respectTransparency.types false in
/-- THE RUN: every weakly fair execution of @main from memory `m` with zero counters terminates, nothing faulting, and the
    final memory holds every unscoped buffer at `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-! ## What the run says of the arguments and of the result -/

/-- THE FRAME: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c)⟩) (run_all m ρ)

/-- THE RESULT: the result array ends at what region 1's write-back leaves, the arguments as launched. -/
theorem value_all : θ_run defs (onTc (τ := τ) (main (F := F))) ⟨m, fun _ => 0, ρ⟩ (fun r => ∀ c : Dev nD,
      r.2.mem ((c.tc : Thread nD τ).loc main_v1) = (dat1 (V1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (W2_v1 m c),
     (h c _ (mem_uc main_arg0 (by decide))).trans (W2_main_arg0 m c),
     (h c _ (mem_uc main_arg1 (by decide))).trans (W2_main_arg1 m c),
     (h c _ (mem_uc main_arg2 (by decide))).trans (W2_main_arg2 m c)⟩) (run_all m ρ)

end Cert.Kernel.Hand

end
-- ==== Proof.KI.Reg0.lean ====
/-
  REGION 0, the gate/up projection with SwiGLU: its proof data and its body obligation, at any float instance.

  Grid: 56 points; point i reads the whole of x, columns [256 i, 256 i + 256) of the gate half of w and the same columns
  of the up half (two windows on the one array w, at block columns i and 56 + i), and writes columns [256 i, 256 i + 256)
  of the hidden array. The body is one store of one pure function of the three loaded blocks.
-/
import proofs.«170557_j678604833229_1_alg».proof.Proof.Gen.KernelIdeal.Launch
import proofs.«170557_j678604833229_1_alg».proof.Proof.Gen.KernelIdeal.Skeleton
import proofs.«170557_j678604833229_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: a parameter, which the run instantiates
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The proof data -/

/-- Region 0's proof data on core `c`: the arrays as the region finds them; after the body each input buffer still at
    its block and the output buffer at the body's one stored value, a function of the three input blocks; nothing kept
    between points; the two windows that read `w` hold one half share of it each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q w := match w with
    | ⟨0, _⟩ => fullShare
    | ⟨1, _⟩ => fullShare.left
    | ⟨2, _⟩ => fullShare.right
    | ⟨3, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
/-- What the body leaves in the output window's buffer at point `t`: the stored value of the point's three blocks. -/
theorem after0_3 (c : Dev nD) (t : Fin cfg0.N) :
    (dat0 V c).after 3 t = k0_pay1 (iblk0 V c 0 t) (iblk0 V c 1 t) (iblk0 V c 2 t) := by dsimp only [dat0]

theorem Phi0 (c : Dev nD) (t : Fin (cfg0.N + 1)) : (dat0 V c).Φ t = Pipeline.ΦA spec0 c := rfl
theorem owed0 (c : Dev nD) (t : Fin (cfg0.N + 1)) : (dat0 V c).owed t = 0 := rfl
theorem q0_0 (c : Dev nD) : (dat0 V c).q 0 = fullShare := rfl
theorem q0_1 (c : Dev nD) : (dat0 V c).q 1 = fullShare.left := rfl
theorem q0_2 (c : Dev nD) : (dat0 V c).q 2 = fullShare.right := rfl
theorem q0_3 (c : Dev nD) : (dat0 V c).q 3 = fullShare := rfl

/-! ## What the body finds in each input window's buffer -/

/-- The offsets of every whole-buffer access of the body are zero. -/
theorem offs_zero0 : (![0, 0] : Fin 2 → Nat) = fun _ => 0 := by
  funext a; fin_cases a <;> rfl

/-- The activation window's buffer holds the whole of `x` at every point: it is filled at the first point and its
    block index never moves afterwards. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The gate window's buffer holds the point's column block of the gate half of `w`. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The up window's buffer holds the point's column block of the up half of `w`. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body's run on whole buffers -/

/-- The rectangle of the body's one store: the whole output buffer. -/
abbrev rOut0 : Rect S512x256 := Rect.unit (s := S512x256) ![0, 0] S512x256.size inb_S512x256_S512x256_0_0

/-- One store through it tiles the buffer with a single tile, so it covers it. -/
theorem cover0_3 (p : Vec F S512x256 .bf16) (y : S512x256.Idx) :
    ∃ pc ∈ ([⟨rOut0, p⟩] : List (View.Piece (Elt F) S512x256 .bf16)), y ∈ pc.1.set :=
  View.cover_of_tiled [⟨rOut0, p⟩] S512x256.size (by rfl) y

set_option maxHeartbeats 1000000 in
/-- The kernel function on whole buffers: the three inputs at read contents `x0`, `x1`, `x2`, the output at anything.
    It loads the four buffers and stores the one pure function of the three inputs over the whole output buffer; the
    inputs are left as they were. -/
theorem run_kernel0 (c : Dev nD) (E : Set ℕ) (i : grid0.Coords)
    (a1 : Memref sig .tc .vmem S512x4096 .f32) (h1 : a1.IsWhole)
    (a2 : Memref sig .tc .vmem S4096x256 .f32) (h2 : a2.IsWhole)
    (a3 : Memref sig .tc .vmem S4096x256 .f32) (h3 : a3.IsWhole)
    (a4 : Memref sig .tc .vmem S512x256 .bf16) (h4 : a4.IsWhole)
    (x0 : Vec F S512x4096 .f32) (x1 x2 : Vec F S4096x256 .f32) (K : PUnit → sProp 𝕄) :
    iprop(owns (c : Thread nD τ) a1 fullShare x0 ∗ owns (c : Thread nD τ) a2 fullShare x1
        ∗ owns (c : Thread nD τ) a3 fullShare x2 ∗ (∃ d, owns (c : Thread nD τ) a4 fullShare d)
        ∗ (iprop(owns (c : Thread nD τ) a1 fullShare x0 ∗ owns (c : Thread nD τ) a2 fullShare x1
            ∗ owns (c : Thread nD τ) a3 fullShare x2 ∗ owns (c : Thread nD τ) a4 fullShare (k0_pay1 x0 x1 x2)) -∗ K ⟨⟩))
      ⊢ wp frame (wpE (defs₀ (F := F)) Variants.none c none) E (cc0__gate_up_kernel i a1 h1 a2 h2 a3 h3 a4 h4) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover0_3 _), View.canon_unit_zero offs_zero0]
  simp only [View.readAt_eq_ld]
  rw [View.ld_unit_zero (S := S512x4096) offs_zero0, View.ld_unit_zero (S := S4096x256) offs_zero0,
    View.ld_unit_zero (S := S4096x256) offs_zero0]

/-! ## The body obligation -/

/-- What the body is handed at point `t`: the invariant, what the core owes, and each window's current buffer at what
    it then holds. -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back: the same invariant and debt, each buffer at what the body leaves in it. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three input buffers hold their blocks (`before0_W`), the output buffer holds something,
    so the run on whole buffers applies; the invariant and the debt, the same at every point, pass through unread. -/
theorem body_at0 (c : Dev nD) (t : Fin cfg0.N) :
    handed0 V c t ⊢ wp frame (wpE (defs₀ (F := F)) Variants.none c none) Set.univ (bodyAt0 t) (fun _ => returned0 V c t) := by
  unfold handed0 returned0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (run_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for region 0, at every point. -/
theorem body_obligation0 (c : Dev nD) : BodyObligation (dat0 (F := F) V c) (defs₀ (F := F)) Variants.none () Set.univ := fun t => by
  rw [bigSep_W0, bigSep_W0]
  exact body_at0 V c t

end Cert.KernelIdeal.Hand

end
-- ==== Proof.KI.Reg1.lean ====
/-
  REGION 1, the down projection accumulated over the intermediate axis: its proof data and its body obligation, at any
  float instance.

  Grid: 56 points; point k reads columns [256 k, 256 k + 256) of the hidden array and rows [256 k, 256 k + 256) of wd. A
  scratch accumulator of the output's shape is carried from point to point: zeroed at the first point, then at every
  point replaced by itself plus the point's partial product; at the last point it is copied to the output window, which is
  written back there only.
-/
import proofs.«170557_j678604833229_1_alg».proof.Proof.Gen.KernelIdeal.Launch
import proofs.«170557_j678604833229_1_alg».proof.Proof.Gen.KernelIdeal.Skeleton
import proofs.«170557_j678604833229_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: a parameter, which the run instantiates
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The carried accumulator -/

/-- The scratch accumulator as a memref: a whole scoped buffer of the kernel's own. -/
abbrev scM1 : Memref sig .tc .vmem S512x4096 .f32 := Memref.whole cc1_scratch0

/-- What the accumulator holds after the body at grid position `n`: at the first point the zero fill plus the first
    partial product, afterwards what the point before left plus this point's partial product. -/
def acc1 (c : Dev nD) : (n : ℕ) → n < cfg1.N → Vec F S512x4096 .f32
  | 0, h => k1_pay2 (iblk1 V c 0 ⟨0, h⟩) (iblk1 V c 1 ⟨0, h⟩) (k1_pay1 (F := F))
  | n + 1, h => k1_pay2 (iblk1 V c 0 ⟨n + 1, h⟩) (iblk1 V c 1 ⟨n + 1, h⟩) (acc1 c n (Nat.lt_of_succ_lt h))

theorem acc1_zero (c : Dev nD) (h : 0 < cfg1.N) :
    acc1 V c 0 h = k1_pay2 (iblk1 V c 0 ⟨0, h⟩) (iblk1 V c 1 ⟨0, h⟩) (k1_pay1 (F := F)) := rfl
theorem acc1_succ (c : Dev nD) (n : ℕ) (h : n + 1 < cfg1.N) :
    acc1 V c (n + 1) h = k1_pay2 (iblk1 V c 0 ⟨n + 1, h⟩) (iblk1 V c 1 ⟨n + 1, h⟩) (acc1 V c n (Nat.lt_of_succ_lt h)) := rfl

/-- The region invariant before position `n`: before the first point the class's (every scoped buffer no window stages
    at anything, the generator register at some state); afterwards the same with the accumulator at what the point
    before left in it. -/
def PhiS1 (c : Dev nD) : (n : ℕ) → n ≤ cfg1.N → sProp 𝕄
  | 0, _ => Pipeline.ΦA spec1 c
  | n + 1, hn => iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ owns (c : Thread nD τ) scM1 fullShare (acc1 V c n hn)
      ∗ (∃ r, prngReg c r))

/-! ## The proof data -/

/-- Region 1's proof data on core `c`: the arrays as the region finds them; after the body each input buffer still at
    its block, the output buffer at the accumulator's contents (read only at the last point, the one point that stores it
    and writes it back); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
/-- What the output window's buffer holds after the body at the point that stores it: the accumulator. -/
theorem after1_2 (c : Dev nD) (t : Fin cfg1.N) : (dat1 V c).after 2 t = acc1 V c t.val t.isLt := by dsimp only [dat1]

theorem owed1 (c : Dev nD) (t : Fin (cfg1.N + 1)) : (dat1 V c).owed t = 0 := rfl
theorem q1 (c : Dev nD) (w : Fin cfg1.W) : (dat1 V c).q w = fullShare := rfl

/-! ## The invariant's two forms -/

theorem PhiS1_zero (c : Dev nD) (n : ℕ) (h : n ≤ cfg1.N) (hz : n = 0) : PhiS1 V c n h = Pipeline.ΦA spec1 c := by
  subst hz; rfl

/-- The invariant after a point as a function of what the accumulator holds: the seven scoped buffers of the other
    region at anything, the accumulator at `X`, the generator register at some state. -/
def chain1 (c : Dev nD) (X : Vec F S512x4096 .f32) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ owns (c : Thread nD τ) scM1 fullShare X
      ∗ (∃ r, prngReg c r))

/-- After point `n` (before point `n + 1`): the accumulator at that point's contents. -/
theorem PhiS1_succ (c : Dev nD) (n : ℕ) (hn : n < cfg1.N) :
    PhiS1 V c (n + 1) hn = chain1 c (acc1 V c n hn) := rfl

/-- Before a point that is not the first: the accumulator at what the point before left. -/
theorem PhiS1_pos (c : Dev nD) (n : ℕ) (h : n ≤ cfg1.N) (hz : n ≠ 0) :
    PhiS1 V c n h = chain1 c (acc1 V c (n - 1) (by omega)) := by
  cases n with
  | zero => exact absurd rfl hz
  | succ n => rfl

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After any point but the first the invariant gives the class's back: the accumulator's named contents are
    forgotten (an owned whole memref at named contents is its buffer's points-to at them). -/
theorem PhiS1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  unfold chain1 Pipeline.ΦA; rw [scopedRest1_eq]
  simp only [scM1, owns_whole]
  iintro ⟨H1, H2, H3, H4, H5, H6, H7, HS, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact HS
  iexact Hg

/-- After the last point the invariant gives the class's back: the accumulator's named contents are forgotten. -/
theorem hout1 (c : Dev nD) : (dat1 V c).Φ (Fin.last cfg1.N) ⊢ Pipeline.ΦA spec1 c :=
  PhiS1_out V c _ (by rw [Fin.val_last]; have : cfg1.N = 56 := N_1; omega)

/-! ## The body's branch conditions, in closed form over the grid -/

/-- The condition of the first `scf.if` (the zero fill), from the grid coordinates. -/
abbrev cond1_0 (i : grid1.Coords) : Prop :=
  (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The condition of the second `scf.if` (the copy to the output window). -/
abbrev cond1_1 (i : grid1.Coords) : Prop := k1_cond2 i = 1#1
/-- It holds at the last point only. -/
theorem hcond1_1 : ∀ t : Fin cfg1.N, cond1_1 (grid1.coords t) ↔ t.val = 55 :=
  (by decide +kernel : ∀ t : Fin grid1.N, cond1_1 (grid1.coords t) ↔ t.val = 55)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- The output window is idle, and not written back, at every point but the last; live at the last. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The body on whole memrefs, case by case -/

/-- The zero offsets of the whole-buffer rectangles, however spelt. -/
theorem hz2 : (![0, 0] : Fin 2 → ℕ) = fun _ => 0 := by funext a; fin_cases a <;> rfl

/-- After a last store through the whole-shape rectangle at zero offsets the buffer reads that store's payload,
    whatever was written before and whatever the buffer held: the one piece covers every index. -/
theorem read_writes_cons_unit_zero {sg : RefSig} {κ : Kind} {sp : Space} {S : Shape} {e : EltTy} {Val : EltTy → Type}
    [∀ e, Nonempty (Val e)] (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

set_option maxHeartbeats 1000000 in
/-- At the first point: the accumulator, found at anything, is zero-filled and then replaced by the fill plus the
    point's partial product; the output buffer is handed back as found. -/
theorem run1_A (c : Dev nD) (i : grid1.Coords)
    (arg1 : Memref sig .tc .vmem S512x256 .bf16) (harg1 : arg1.IsWhole)
    (arg2 : Memref sig .tc .vmem S256x4096 .f32) (harg2 : arg2.IsWhole)
    (arg3 : Memref sig .tc .vmem S512x4096 .f32) (harg3 : arg3.IsWhole)
    (arg4 : Memref sig .tc .vmem S512x4096 .f32) (harg4 : arg4.IsWhole)
    (hc0 : cond1_0 i) (hc1 : ¬cond1_1 i)
    (x0 : Vec F S512x256 .bf16) (x1 : Vec F S256x4096 .f32) (xi2 : Vec F S512x4096 .f32)
    (E : Set ℕ) (K : PUnit → sProp 𝕄) :
    iprop(owns (c : Thread nD τ) arg1 fullShare x0 ∗ owns (c : Thread nD τ) arg2 fullShare x1
        ∗ owns (c : Thread nD τ) arg3 fullShare xi2 ∗ (∃ d, owns (c : Thread nD τ) arg4 fullShare d)
        ∗ (iprop(owns (c : Thread nD τ) arg1 fullShare x0 ∗ owns (c : Thread nD τ) arg2 fullShare x1
            ∗ owns (c : Thread nD τ) arg3 fullShare xi2
            ∗ owns (c : Thread nD τ) arg4 fullShare (k1_pay2 x0 x1 (k1_pay1 (F := F)))) -∗ K ⟨⟩))
      ⊢ wp frame (wpE (defs₀ (F := F)) Variants.none c none) E (cc1__down_kernel i arg1 harg1 arg2 harg2 arg3 harg3 arg4 harg4) K := by
  simp only [cc1__down_kernel_eq_skeleton]; unfold cc1__down_kernel_skel
  unfold owns
  iintro ⟨⟨%f0, %hf0, H0⟩, ⟨%f1, %hf1, H1⟩, ⟨%f2, %hf2, H2⟩, ⟨%ds0, %fs0, -, HS0⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS0
  ipureintro
  sl_unfold_words
  rw [read_writes_cons_unit_zero (S := S512x4096) _ _ hz2]
  simp only [View.readAt_eq_ld, harg1.read_unread, harg2.read_unread, View.ld_unit_zero (S := S512x256) hz2,
    View.ld_unit_zero (S := S256x4096) hz2, View.readCov_unit_zero (S := S512x4096) _ hz2]

set_option maxHeartbeats 1000000 in
/-- At a point that is neither the first nor the last: the accumulator, found at `xs`, is replaced by `xs` plus the
    point's partial product; the output buffer is handed back as found. -/
theorem run1_B (c : Dev nD) (i : grid1.Coords)
    (arg1 : Memref sig .tc .vmem S512x256 .bf16) (harg1 : arg1.IsWhole)
    (arg2 : Memref sig .tc .vmem S256x4096 .f32) (harg2 : arg2.IsWhole)
    (arg3 : Memref sig .tc .vmem S512x4096 .f32) (harg3 : arg3.IsWhole)
    (arg4 : Memref sig .tc .vmem S512x4096 .f32) (harg4 : arg4.IsWhole)
    (hc0 : ¬cond1_0 i) (hc1 : ¬cond1_1 i)
    (x0 : Vec F S512x256 .bf16) (x1 : Vec F S256x4096 .f32) (xi2 : Vec F S512x4096 .f32) (xs : Vec F S512x4096 .f32)
    (E : Set ℕ) (K : PUnit → sProp 𝕄) :
    iprop(owns (c : Thread nD τ) arg1 fullShare x0 ∗ owns (c : Thread nD τ) arg2 fullShare x1
        ∗ owns (c : Thread nD τ) arg3 fullShare xi2 ∗ owns (c : Thread nD τ) arg4 fullShare xs
        ∗ (iprop(owns (c : Thread nD τ) arg1 fullShare x0 ∗ owns (c : Thread nD τ) arg2 fullShare x1
            ∗ owns (c : Thread nD τ) arg3 fullShare xi2
            ∗ owns (c : Thread nD τ) arg4 fullShare (k1_pay2 x0 x1 xs)) -∗ K ⟨⟩))
      ⊢ wp frame (wpE (defs₀ (F := F)) Variants.none c none) E (cc1__down_kernel i arg1 harg1 arg2 harg2 arg3 harg3 arg4 harg4) K := by
  simp only [cc1__down_kernel_eq_skeleton]; unfold cc1__down_kernel_skel
  unfold owns
  iintro ⟨⟨%f0, %hf0, H0⟩, ⟨%f1, %hf1, H1⟩, ⟨%f2, %hf2, H2⟩, ⟨%fs0, %hfs0, HS0⟩, Hk⟩
  obtain rfl := harg1.eq_unread hf0; obtain rfl := harg2.eq_unread hf1; obtain rfl := harg3.eq_unread hf2
  obtain rfl := harg4.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS0
  ipureintro
  sl_unfold_words
  rw [read_writes_cons_unit_zero (S := S512x4096) _ _ hz2]
  simp only [View.readAt_eq_ld, harg1.read_unread, harg2.read_unread, harg4.read_unread, View.ld_unit_zero (S := S512x256) hz2,
    View.ld_unit_zero (S := S256x4096) hz2, View.ld_unit_zero (S := S512x4096) hz2]

set_option maxHeartbeats 1000000 in
/-- At the last point: the accumulator, found at `xs`, is replaced by `xs` plus the point's partial product, and the
    output buffer, found at anything, is stored whole with the accumulator's new contents. -/
theorem run1_C (c : Dev nD) (i : grid1.Coords)
    (arg1 : Memref sig .tc .vmem S512x256 .bf16) (harg1 : arg1.IsWhole)
    (arg2 : Memref sig .tc .vmem S256x4096 .f32) (harg2 : arg2.IsWhole)
    (arg3 : Memref sig .tc .vmem S512x4096 .f32) (harg3 : arg3.IsWhole)
    (arg4 : Memref sig .tc .vmem S512x4096 .f32) (harg4 : arg4.IsWhole)
    (hc0 : ¬cond1_0 i) (hc1 : cond1_1 i)
    (x0 : Vec F S512x256 .bf16) (x1 : Vec F S256x4096 .f32) (xs : Vec F S512x4096 .f32)
    (E : Set ℕ) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare (k1_pay2 x0 x1 xs)
            ∗ owns (c : Thread nD τ) arg4 fullShare (k1_pay2 x0 x1 xs)) -∗ K ⟨⟩))
      ⊢ wp frame (wpE (defs₀ (F := F)) Variants.none c none) E (cc1__down_kernel i arg1 harg1 arg2 harg2 arg3 harg3 arg4 harg4) K := by
  simp only [cc1__down_kernel_eq_skeleton]; unfold cc1__down_kernel_skel
  unfold owns
  iintro ⟨⟨%f0, %hf0, H0⟩, ⟨%f1, %hf1, H1⟩, ⟨%d2, %f2, -, H2⟩, ⟨%fs0, %hfs0, HS0⟩, Hk⟩
  obtain rfl := harg1.eq_unread hf0; obtain rfl := harg2.eq_unread hf1
  obtain rfl := harg4.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_words
    rw [read_writes_cons_unit_zero (S := S512x4096) _ _ hz2]
    simp only [View.readAt_eq_ld, harg1.read_unread, harg2.read_unread, harg4.read_unread, View.ld_unit_zero (S := S512x256) hz2,
      View.ld_unit_zero (S := S256x4096) hz2, View.ld_unit_zero (S := S512x4096) hz2, View.readCov_unit_zero (S := S512x4096) _ hz2]
  iexists _; isplitr
  swap; · iexact HS0
  ipureintro
  sl_unfold_words
  rw [read_writes_cons_unit_zero (S := S512x4096) _ _ hz2]
  simp only [View.readAt_eq_ld, harg1.read_unread, harg2.read_unread, harg4.read_unread, View.ld_unit_zero (S := S512x256) hz2,
    View.ld_unit_zero (S := S256x4096) hz2, View.ld_unit_zero (S := S512x4096) hz2]

/-! ## What the body finds in the input windows' buffers, and the accumulator's recursion at a point -/

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The accumulator after the first point. -/
theorem acc1_first (c : Dev nD) (t : Fin cfg1.N) (h0 : t.val = 0) :
    acc1 V c t.val t.isLt = k1_pay2 (iblk1 V c 0 t) (iblk1 V c 1 t) (k1_pay1 (F := F)) := by
  obtain ⟨n, hn⟩ := t
  cases n with
  | zero => rfl
  | succ n => exact absurd h0 (Nat.succ_ne_zero _)

/-- The accumulator after a later point, over what the point before left. -/
theorem acc1_later (c : Dev nD) (t : Fin cfg1.N) (h0 : t.val ≠ 0) :
    acc1 V c t.val t.isLt
      = k1_pay2 (iblk1 V c 0 t) (iblk1 V c 1 t) (acc1 V c (t.val - 1) (Nat.lt_of_le_of_lt (Nat.sub_le _ _) t.isLt)) := by
  obtain ⟨n, hn⟩ := t
  cases n with
  | zero => exact absurd rfl h0
  | succ n => rfl

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point, by the three cases of the point's position. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl]
  have hN : t.val < 56 := lt_of_lt_of_eq t.isLt (show cfg1.N = 56 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  by_cases h0 : t.val = 0
  · -- the first point: the accumulator found at anything
    have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1)]
    rw [PhiS1_castSucc V c t, PhiS1_zero V c _ _ h0, PhiS1_succ, acc1_first V c t h0]
    unfold chain1 Pipeline.ΦA; rw [scopedRest1_eq]
    iintro ⟨⟨⟨R1, R2, R3, R4, R5, R6, R7, ⟨%fs, HS⟩⟩, Hg⟩, Ho, ⟨%d0, H0⟩, ⟨%d1, H1⟩, ⟨%d2, H2⟩⟩
    iapply (run1_A c (grid1.coords t) _ _ _ _ _ _ _ _ hc0 hc1 (iblk1 V c 0 t) (iblk1 V c 1 t) _ Set.univ _)
    isplitl [H0]; · iexact H0
    isplitl [H1]; · iexact H1
    isplitl [H2]; · iexact H2
    isplitl [HS]
    · iexists fs; rw [owns_whole]; iexact HS
    iintro ⟨H0, H1, H2, HS⟩
    isplitl [R1 R2 R3 R4 R5 R6 R7 HS Hg]
    · isplitl [R1]; · iexact R1
      isplitl [R2]; · iexact R2
      isplitl [R3]; · iexact R3
      isplitl [R4]; · iexact R4
      isplitl [R5]; · iexact R5
      isplitl [R6]; · iexact R6
      isplitl [R7]; · iexact R7
      isplitl [HS]; · iexact HS
      iexact Hg
    isplitl [Ho]; · iexact Ho
    isplitl [H0]; · iexact H0
    isplitl [H1]; · iexact H1
    iexists _; iexact H2
  · have hc0 : ¬cond1_0 (grid1.coords t) := fun h => h0 ((hcond1_0 t).mp h)
    by_cases h1 : t.val = 55
    · -- the last point: the accumulator's new contents are copied to the output buffer
      have hc1 : cond1_1 (grid1.coords t) := (hcond1_1 t).mpr h1
      rw [show (dat1 V c).leavesExact 2 t = owns (c : Thread nD τ) (st1_2 t) fullShare ((dat1 V c).after 2 t) from by
        unfold Dat.leavesExact; rw [liveAt1_2 t hc1], after1_2]
      rw [PhiS1_castSucc V c t, PhiS1_pos V c _ _ h0, PhiS1_succ, acc1_later V c t h0]
      unfold chain1
      iintro ⟨⟨R1, R2, R3, R4, R5, R6, R7, HS, Hg⟩, Ho, ⟨%d0, H0⟩, ⟨%d1, H1⟩, ⟨%d2, H2⟩⟩
      iapply (run1_C c (grid1.coords t) _ _ _ _ _ _ _ _ hc0 hc1 (iblk1 V c 0 t) (iblk1 V c 1 t)
        (acc1 V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [R1 R2 R3 R4 R5 R6 R7 HS Hg]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [HS]; · iexact HS
        iexact Hg
      isplitl [Ho]; · iexact Ho
      isplitl [H0]; · iexact H0
      isplitl [H1]; · iexact H1
      iexact H2
    · -- a point between: the output buffer is handed back as found
      have hc1 : ¬cond1_1 (grid1.coords t) := fun h => h1 ((hcond1_1 t).mp h)
      rw [Dat.leavesExact_idle (dat1 V c) 2 t (idleAt1_2 t hc1) (noFlush1_2 t hc1)]
      rw [PhiS1_castSucc V c t, PhiS1_pos V c _ _ h0, PhiS1_succ, acc1_later V c t h0]
      unfold chain1
      iintro ⟨⟨R1, R2, R3, R4, R5, R6, R7, HS, Hg⟩, Ho, ⟨%d0, H0⟩, ⟨%d1, H1⟩, ⟨%d2, H2⟩⟩
      iapply (run1_B c (grid1.coords t) _ _ _ _ _ _ _ _ hc0 hc1 (iblk1 V c 0 t) (iblk1 V c 1 t) _
        (acc1 V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [R1 R2 R3 R4 R5 R6 R7 HS Hg]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [HS]; · iexact HS
        iexact Hg
      isplitl [Ho]; · iexact Ho
      isplitl [H0]; · iexact H0
      isplitl [H1]; · iexact H1
      iexists _; iexact H2

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Share0.lean ====
/-
  REGION 0's arrays among the core's unscoped buffers, when two of its windows read ONE array.

  Windows 1 and 2 of region 0 both read the array w (at different column blocks); windows 0 and 3 have arrays of their
  own (x, and the hidden array the region writes). The core holds every unscoped buffer whole, at the full share; the
  pipeline wants one points-to per WINDOW, each at the window's share. So at entry the full share of w is split into
  its left and right halves, one per reading window, and at exit the two halves — both still at w's entry contents, an
  input array being never written — are joined back into the full share.
-/
import proofs.«170557_j678604833229_1_alg».proof.Proof.Gen.KernelIdeal.Launch
import proofs.«170557_j678604833229_1_alg».proof.Proof.Gen.KernelIdeal.Skeleton
import proofs.«170557_j678604833229_1_alg».proof.Proof.Gen.KernelIdeal.Points
import proofs.«170557_j678604833229_1_alg».proof.Proof.KI.Reg0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: a parameter, which the run instantiates
variable (V : (c : Dev nD) → (b : Ref sig .tc) → Buf (Elt F) ((c : Thread nD τ).loc b))

/-! ## The buffers behind the arrays -/

/-- The distinct buffers behind region 0's four windows are three: x, w (read by windows 1 and 2) and the hidden array. -/
theorem arrImage0 : Finset.univ.image (Pipeline.arrRef spec0) = {main_arg0, main_arg1, main_v0} := by decide

/-- The buffers behind the arrays, each whole at the full share, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0)
          ∗ (((c : Thread nD τ).loc main_arg1) ↦{fullShare} W main_arg1)
          ∗ (((c : Thread nD τ).loc main_v0) ↦{fullShare} W main_v0)) := by
  unfold Pipeline.arrBufs
  rw [arrImage0, bigSep_insert (by decide), bigSep_insert (by decide), bigSep_singleton]
  rfl

/-- The shares the core holds the four arrays at: x and the hidden array whole, w's left half for window 1 and its
    right half for window 2. -/
theorem share0_0 (c : Dev nD) : (dat0 V c).share 0 = fullShare := rfl
theorem share0_1 (c : Dev nD) : (dat0 V c).share 1 = fullShare.left := rfl
theorem share0_2 (c : Dev nD) : (dat0 V c).share 2 = fullShare.right := rfl
theorem share0_3 (c : Dev nD) : (dat0 V c).share 3 = fullShare := rfl

/-- The pipeline's arrays window by window: every array is a whole buffer, so each points-to is of all its elements. -/
theorem arrays0_eq (c : Dev nD)
    (Fa : (w : Fin cfg0.W) → Buf (Elt F) ((cfg0.spec w).arr.view.loc (c : Thread nD τ))) :
    ((dat0 V c).arrays Fa : sProp 𝕄)
      = iprop((((c : Thread nD τ).loc main_arg0) ↦{fullShare} Fa 0)
          ∗ (((c : Thread nD τ).loc main_arg1) ↦{fullShare.left} Fa 1)
          ∗ (((c : Thread nD τ).loc main_arg1) ↦{fullShare.right} Fa 2)
          ∗ (((c : Thread nD τ).loc main_v0) ↦{fullShare} Fa 3)) := by
  unfold Dat.arrays
  rw [bigSep_W0, (arr_whole0 0).set_eq_univ, (arr_whole0 1).set_eq_univ, (arr_whole0 3).set_eq_univ,
    share0_0, share0_1, share0_2, share0_3]

/-! ## The full share of w dealt between its two windows, and back -/

/-- The buffers behind the arrays, whole at contents `W`, are the pipeline's arrays at the same contents: the full share
    of w is split into its halves, one for each window that reads it. -/
theorem arrays_of_arrBufs0 (c : Dev nD) (W : (b : Ref sig .tc) → Buf (Elt F) ((c : Thread nD τ).loc b))
    (Fa : (w : Fin cfg0.W) → Buf (Elt F) ((cfg0.spec w).arr.view.loc (c : Thread nD τ)))
    (hF : ∀ w, Fa w = W (Pipeline.arrRef spec0 w)) :
    (Pipeline.arrBufs (Ix := Unit) (Name := ℕ) (U := UR sig nD τ) (Lvl := ℕ) spec0 c W : sProp 𝕄) ⊢ (dat0 V c).arrays Fa := by
  rw [arrBufs0_eq, arrays0_eq, hF 0, hF 1, hF 2, hF 3]
  iintro ⟨H0, H1, H3⟩
  ihave H1 := (pointsTo_share (PosShare.mem_left_op_right fullShare)).1 $$ H1
  icases H1 with ⟨H1l, H1r⟩
  isplitl [H0]; · iexact H0
  isplitl [H1l]; · iexact H1l
  isplitl [H1r]; · iexact H1r
  iexact H3

/-- The pipeline's arrays at contents that agree with `W` — so the two windows on w hold ONE contents — are the buffers
    behind the arrays whole at `W`: the two halves of w join into its full share. -/
theorem arrBufs_of_arrays0 (c : Dev nD) (W : (b : Ref sig .tc) → Buf (Elt F) ((c : Thread nD τ).loc b))
    (Fa : (w : Fin cfg0.W) → Buf (Elt F) ((cfg0.spec w).arr.view.loc (c : Thread nD τ)))
    (hF : ∀ w, Fa w = W (Pipeline.arrRef spec0 w)) :
    ((dat0 V c).arrays Fa : sProp 𝕄) ⊢ Pipeline.arrBufs (Ix := Unit) (Name := ℕ) (U := UR sig nD τ) (Lvl := ℕ) spec0 c W := by
  rw [arrBufs0_eq, arrays0_eq, hF 0, hF 1, hF 2, hF 3]
  iintro ⟨H0, H1l, H1r, H3⟩
  ihave H1 := (pointsTo_share (PosShare.mem_left_op_right fullShare)).2 $$ [H1l H1r]
  · isplitl [H1l]; · iexact H1l
    iexact H1r
  isplitl [H0]; · iexact H0
  isplitl [H1]; · iexact H1
  iexact H3

/-- The core's unscoped buffers are the buffers behind region 0's arrays and the rest. -/
theorem unscopedBufs_split0 (c : Dev nD) (W : (b : Ref sig .tc) → Buf (Elt F) ((c : Thread nD τ).loc b)) :
    (unscopedBufs c W : sProp 𝕄)
      = iprop(Pipeline.arrBufs (Ix := Unit) (Name := ℕ) (U := UR sig nD τ) (Lvl := ℕ) spec0 c W
          ∗ Pipeline.unscopedRest (Ix := Unit) (Name := ℕ) (U := UR sig nD τ) (Lvl := ℕ) spec0 c W) :=
  Pipeline.unscopedBufs_split₀ (fun _ : Unit => cfg0) () winFacts₀0.arr_unscoped c W

/-! ## Entry and exit -/

/-- ENTRY: the core's unscoped buffers at contents `V c` are region 0's arrays at the proof data's entry contents,
    each window at its share, and the unscoped buffers that are no window's array. -/
theorem arrays_of_unscopedBufs0 (c : Dev nD) :
    (unscopedBufs c (V c) : sProp 𝕄)
      ⊢ iprop((dat0 V c).arrays ((dat0 V c).arrAt · 0)
          ∗ Pipeline.unscopedRest (Ix := Unit) (Name := ℕ) (U := UR sig nD τ) (Lvl := ℕ) spec0 c (V c)) := by
  rw [unscopedBufs_split0]
  exact sep_mono (arrays_of_arrBufs0 V c (V c) _ fun w => A_eq0 V c w) .rfl

/-- EXIT: region 0's arrays at contents `Fa` — where the two windows on `w` hold the same contents — and the unscoped
    rest at `V c` are the core's unscoped buffers at any valuation `V'` that has each array at its window's contents and
    agrees with `V c` off the arrays. -/
theorem unscopedBufs_of_arrays0 (c : Dev nD) (V' : (b : Ref sig .tc) → Buf (Elt F) ((c : Thread nD τ).loc b))
    (Fa : (w : Fin cfg0.W) → Buf (Elt F) ((cfg0.spec w).arr.view.loc (c : Thread nD τ)))
    (hF : ∀ w, Fa w = V' (Pipeline.arrRef spec0 w))
    (hrest : ∀ b, b ∉ Finset.univ.image (Pipeline.arrRef spec0) → V' b = V c b) :
    iprop((dat0 V c).arrays Fa
        ∗ Pipeline.unscopedRest (Ix := Unit) (Name := ℕ) (U := UR sig nD τ) (Lvl := ℕ) spec0 c (V c))
      ⊢ (unscopedBufs c V' : sProp 𝕄) := by
  rw [unscopedBufs_split0]
  refine sep_mono (arrBufs_of_arrays0 V c V' Fa hF) (Entails.of_eq ?_)
  unfold Pipeline.unscopedRest
  exact bigSep_congr fun b hb => by rw [hrest b (Finset.mem_sdiff.mp hb).2]

end Cert.KernelIdeal.Hand

end
-- ==== Proof.KI.Run.lean ====
/-
  THE RUN of the two-region program, at any float instance: from any memory with zero counters every weakly fair execution
  of @main terminates, nothing faulting, and the final memory holds every unscoped buffer at a named valuation:
  the launch contents, updated at the hidden array by what region 0's write-backs leave there, then at the result array
  by what region 1's write-back leaves there. The arguments are never written, so they end as launched; the result is
  region 1's output array after its last point.

  @main is two kernel regions and no host operation. Between the items a core's thread state is "every unscoped buffer
  whole at the boundary's valuation, the generator register at some state, nothing owed". Region 0 reads the weight array
  through two windows, so its entry and exit split and rejoin that array's share; region 1's arrays are distinct.
-/
import proofs.«170557_j678604833229_1_alg».proof.Proof.Gen.KernelIdeal.Launch
import proofs.«170557_j678604833229_1_alg».proof.Proof.Gen.KernelIdeal.Skeleton
import proofs.«170557_j678604833229_1_alg».proof.Proof.Gen.KernelIdeal.Points
import proofs.«170557_j678604833229_1_alg».proof.Proof.KI.Reg0
import proofs.«170557_j678604833229_1_alg».proof.Proof.KI.Reg1
import proofs.«170557_j678604833229_1_alg».proof.Proof.KI.Share0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: a parameter, which the run instantiates
variable (V : (c : Dev nD) → (b : Ref sig .tc) → Buf (Elt F) ((c : Thread nD τ).loc b))

variable (m : (ℓ : Loc nD τ sig) → Buf (Elt F) ℓ) (ρ : Dev nD → PrngReg)

/-! ## The buffer contents at each boundary -/

/-- Core `c`'s unscoped buffers at launch. -/
abbrev W0 (c : Dev nD) : Valuation τ sig (Elt F) := fun b => m (c, b)
/-- The same read at the TensorCore's references: what region 0's proof data take. -/
abbrev V0 : (c : Dev nD) → (b : Ref sig .tc) → Buf (Elt F) ((c : Thread nD τ).loc b) := fun c b => W0 m c b
/-- After region 0: the hidden array at what the region's write-backs leave, every other buffer as launched. -/
def W1 (c : Dev nD) : Valuation τ sig (Elt F) :=
  Function.update (W0 m c) main_v0 ((dat0 (V0 m) c).arrAt 3 cfg0.N)
/-- The same at the TensorCore's references: what region 1's proof data take. -/
abbrev V1 : (c : Dev nD) → (b : Ref sig .tc) → Buf (Elt F) ((c : Thread nD τ).loc b) := fun c b => W1 m c b
/-- After region 1: the result array at what the region's write-back leaves, every other buffer as before. -/
def W2 (c : Dev nD) : Valuation τ sig (Elt F) :=
  Function.update (W1 m c) main_v1 ((dat1 (V1 m) c).arrAt 2 cfg1.N)
abbrev V2 : (c : Dev nD) → (b : Ref sig .tc) → Buf (Elt F) ((c : Thread nD τ).loc b) := fun c b => W2 m c b

theorem W1_v0 (c : Dev nD) : W1 m c main_v0 = (dat0 (V0 m) c).arrAt 3 cfg0.N := by
  unfold W1; exact Function.update_self ..
theorem W1_of_ne (c : Dev nD) (r : Ref sig .tc) (h : r ≠ main_v0) : W1 m c r = W0 m c r := by
  unfold W1
  exact Function.update_of_ne (StableHlo.devRef_ne_of_ne h : (Proc.devRef .tc r : DevRef τ sig) ≠ Proc.devRef .tc main_v0) ..
theorem W2_v1 (c : Dev nD) : W2 m c main_v1 = (dat1 (V1 m) c).arrAt 2 cfg1.N := by
  unfold W2; exact Function.update_self ..
theorem W2_of_ne (c : Dev nD) (r : Ref sig .tc) (h : r ≠ main_v1) : W2 m c r = W1 m c r := by
  unfold W2
  exact Function.update_of_ne (StableHlo.devRef_ne_of_ne h : (Proc.devRef .tc r : DevRef τ sig) ≠ Proc.devRef .tc main_v1) ..

/-- No region writes an argument: each ends as launched. -/
theorem W2_main_arg0 (c : Dev nD) : W2 m c main_arg0 = m ((c : Thread nD τ).loc main_arg0) :=
  (W2_of_ne m c main_arg0 (by decide)).trans ((W1_of_ne m c main_arg0 (by decide)).trans rfl)
theorem W2_main_arg1 (c : Dev nD) : W2 m c main_arg1 = m ((c : Thread nD τ).loc main_arg1) :=
  (W2_of_ne m c main_arg1 (by decide)).trans ((W1_of_ne m c main_arg1 (by decide)).trans rfl)
theorem W2_main_arg2 (c : Dev nD) : W2 m c main_arg2 = m ((c : Thread nD τ).loc main_arg2) :=
  (W2_of_ne m c main_arg2 (by decide)).trans ((W1_of_ne m c main_arg2 (by decide)).trans rfl)
/-- Region 1 finds the down-projection weights as launched, and the hidden array as region 0 left it. -/
theorem V1_main_arg2 (c : Dev nD) : V1 m c main_arg2 = m ((c : Thread nD τ).loc main_arg2) :=
  (W1_of_ne m c main_arg2 (by decide)).trans rfl
theorem V1_main_v0 (c : Dev nD) : V1 m c main_v0 = (dat0 (V0 m) c).arrAt 3 cfg0.N := W1_v0 m c

/-- At region 0's exit each of its arrays holds what the pipeline leaves: an input array its entry contents, the hidden
    array its write-backs. -/
theorem hF0 (c : Dev nD) (w : Fin cfg0.W) : (dat0 (V0 m) c).arrAt w cfg0.N = V1 m c (Pipeline.arrRef spec0 w) := by
  match w with
  | ⟨0, _⟩ => exact ((dat0 (V0 m) c).arrAt_in 0 rfl _).trans ((A_eq0 (V0 m) c 0).trans (W1_of_ne m c main_arg0 (by decide)).symm)
  | ⟨1, _⟩ => exact ((dat0 (V0 m) c).arrAt_in 1 rfl _).trans ((A_eq0 (V0 m) c 1).trans (W1_of_ne m c main_arg1 (by decide)).symm)
  | ⟨2, _⟩ => exact ((dat0 (V0 m) c).arrAt_in 2 rfl _).trans ((A_eq0 (V0 m) c 2).trans (W1_of_ne m c main_arg1 (by decide)).symm)
  | ⟨3, _⟩ => exact (W1_v0 m c).symm
theorem hrest0 (c : Dev nD) : ∀ b, b ∉ Finset.univ.image (Pipeline.arrRef spec0) → V1 m c b = V0 m c b :=
  fun b hb => W1_of_ne m c b fun e => hb (Finset.mem_image.mpr ⟨3, Finset.mem_univ _, e.symm⟩)

/-- The same for region 1. -/
theorem hF1 (c : Dev nD) (w : Fin cfg1.W) : (dat1 (V1 m) c).arrAt w cfg1.N = V2 m c (Pipeline.arrRef spec1 w) := by
  match w with
  | ⟨0, _⟩ => exact ((dat1 (V1 m) c).arrAt_in 0 rfl _).trans ((A_eq1 (V1 m) c 0).trans (W2_of_ne m c main_v0 (by decide)).symm)
  | ⟨1, _⟩ => exact ((dat1 (V1 m) c).arrAt_in 1 rfl _).trans ((A_eq1 (V1 m) c 1).trans (W2_of_ne m c main_arg2 (by decide)).symm)
  | ⟨2, _⟩ => exact (W2_v1 m c).symm
theorem hrest1 (c : Dev nD) : ∀ b, b ∉ Finset.univ.image (Pipeline.arrRef spec1) → V2 m c b = V1 m c b :=
  fun b hb => W2_of_ne m c b fun e => hb (Finset.mem_image.mpr ⟨2, Finset.mem_univ _, e.symm⟩)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
/-- REGION 0 over the thread state: entered from every unscoped buffer at the launch contents, left at `W1`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit : (unscopedBufs c (V0 m c) : sProp 𝕄)
        ⊢ iprop((pdats m 0 c).arrays ((pdats m 0 c).arrAt · 0)
          ∗ Pipeline.unscopedRest (Ix := Unit) (Name := ℕ) (U := UR sig nD τ) (Lvl := ℕ) spec0 c (V0 m c)) :=
      arrays_of_unscopedBufs0 (V0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N)
          ∗ Pipeline.unscopedRest (Ix := Unit) (Name := ℕ) (U := UR sig nD τ) (Lvl := ℕ) spec0 c (V0 m c))
        ⊢ (unscopedBufs c (V1 m c) : sProp 𝕄) :=
      unscopedBufs_of_arrays0 (V0 m) c (V1 m c) ((dat0 (V0 m) c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W1`, left at `W2`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ (Pipeline.ΦA spec1 c : sProp 𝕄) from by
      unfold Pipeline.ΦA
      iintro ⟨Hp, -, Hr⟩
      isplitl [Hr]; · iexact Hr
      iexact Hp).trans (hin1 (V1 m) c)
  hout c :=
    (hout1 (V1 m) c).trans (show (Pipeline.ΦA spec1 c : sProp 𝕄) ⊢ _ from by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's two items in order. -/
abbrev segs : List (Pipeline.Seg (pcfgs (F := F)) adm (pdats m) () defs₀ 𝒱₀ L lv) :=
  [ .region (reg0 m), .region (reg1 m) ]
/-- @main IS the run of the segments. -/
theorem main_run (c : Dev nD) : main (F := F) c = Pipeline.Seg.run (segs m) :=
  main_segs adm (pdats m) () 𝒱₀ L lv (reg0 m) (reg1 m) c

set_option backward.isDefEq.respectTransparency.types false in
/-- THE RUN: every weakly fair execution of @main from memory `m` with zero counters terminates, nothing faulting, and the
    final memory holds every unscoped buffer at `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-! ## What the run says of the arguments and of the result -/

/-- THE FRAME: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c)⟩) (run_all m ρ)

/-- THE RESULT: the result array ends at what region 1's write-back leaves, the arguments as launched. -/
theorem value_all : θ_run defs (onTc (τ := τ) (main (F := F))) ⟨m, fun _ => 0, ρ⟩ (fun r => ∀ c : Dev nD,
      r.2.mem ((c.tc : Thread nD τ).loc main_v1) = (dat1 (V1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (W2_v1 m c),
     (h c _ (mem_uc main_arg0 (by decide))).trans (W2_main_arg0 m c),
     (h c _ (mem_uc main_arg1 (by decide))).trans (W2_main_arg1 m c),
     (h c _ (mem_uc main_arg2 (by decide))).trans (W2_main_arg2 m c)⟩) (run_all m ρ)

end Cert.KernelIdeal.Hand

end
-- ==== Proof.Spec.lean ====
/-
  The mathematics both programs compute, stated once, over explicit coordinates and with no program imported.

  Inputs: x : [512, 4096], w : [4096, 28672] (its left half of 14336 columns the gate projection, its right half the
  up projection), wd : [14336, 4096]. For a token t and an intermediate column n,
      gate t n = sum over k of x(t,k) * w(k, n)            up t n = sum over k of x(t,k) * w(k, 14336 + n)
      hidden t n = (gate t n * logistic (gate t n)) * up t n          (SwiGLU: silu(gate) * up)
  and the result is  out t j = sum over n < 14336 of hidden t n * wd(n, j).

  The kernel computes the same sum in 56 blocks of 256 intermediate columns, adding one block's partial product to a
  zeroed accumulator per grid step; `blockTerm` is one block's contribution and `accUpTo` the accumulator after a step.
  Everything is over the extended reals, where addition is commutative and associative without any finiteness
  assumption, so regrouping the sum by blocks is unconditional.
-/
import Idealize.ShloMosaic.PureOps.Ideal
import Idealize.ShloMosaic.Lib.ValueIdx

noncomputable section

open scoped BigOperators

namespace Cert.Spec

open Idealize.ShloMosaic Idealize.ShloMosaic.ValueIdx

/-- The arrays' shapes, spelt literally (each program's own shape abbreviations unfold to these). -/
abbrev SX : Shape := ⟨2, ![512, 4096]⟩
abbrev SW : Shape := ⟨2, ![4096, 28672]⟩
abbrev SD : Shape := ⟨2, ![14336, 4096]⟩
abbrev SH : Shape := ⟨2, ![512, 14336]⟩

/-- Column `n` of the gate half of `w`. -/
def colG (n : Fin 14336) : Fin 28672 := ⟨n.val, by have := n.isLt; omega⟩
/-- Column `n` of the up half of `w`: offset by the 14336 gate columns. -/
def colU (n : Fin 14336) : Fin 28672 := ⟨14336 + n.val, by have := n.isLt; omega⟩

/-- Intermediate column `r` of block `kb`: `256 * kb + r`. -/
def colOf (kb : Fin 56) (r : Fin 256) : Fin 14336 := ⟨256 * kb.val + r.val, by have := kb.isLt; have := r.isLt; omega⟩

/-- The gate pre-activation of token `t` at intermediate column `n`. -/
def gate (x : SX.Idx → EReal) (w : SW.Idx → EReal) (t : Fin 512) (n : Fin 14336) : EReal :=
  ∑ k : Fin 4096, x (ix2 t k) * w (ix2 k (colG n))

/-- The up projection of token `t` at intermediate column `n`. -/
def up (x : SX.Idx → EReal) (w : SW.Idx → EReal) (t : Fin 512) (n : Fin 14336) : EReal :=
  ∑ k : Fin 4096, x (ix2 t k) * w (ix2 k (colU n))

/-- SwiGLU's hidden activation: `silu(gate) * up`, with `silu g = g * logistic g`, multiplied in this order. -/
def hidden (x : SX.Idx → EReal) (w : SW.Idx → EReal) (t : Fin 512) (n : Fin 14336) : EReal :=
  (gate x w t n * Ideal.logistic (gate x w t n)) * up x w t n

/-- The result at token `t` and output column `j`: the down projection of the hidden activations. -/
def out (x : SX.Idx → EReal) (w : SW.Idx → EReal) (wd : SD.Idx → EReal) (t : Fin 512) (j : Fin 4096) : EReal :=
  ∑ n : Fin 14336, hidden x w t n * wd (ix2 n j)

/-- The hidden activations as an array over `[512, 14336]`. -/
def hiddenArr (x : SX.Idx → EReal) (w : SW.Idx → EReal) : SH.Idx → EReal := fun i => hidden x w (i 0) (i 1)

/-- The result as an array over `[512, 4096]`: THE function both programs compute. -/
def G (x : SX.Idx → EReal) (w : SW.Idx → EReal) (wd : SD.Idx → EReal) : SX.Idx → EReal := fun i => out x w wd (i 0) (i 1)

/-- One block's contribution to `out t j`, for ANY hidden array `h` over `[512, 14336]`: the partial down projection
    over the 256 intermediate columns of block `kb`. -/
def blockTerm (h : SH.Idx → EReal) (wd : SD.Idx → EReal) (t : Fin 512) (j : Fin 4096) (kb : Fin 56) : EReal :=
  ∑ r : Fin 256, h (ix2 t (colOf kb r)) * wd (ix2 (colOf kb r) j)

/-- The kernel's accumulator after grid step `n` (`n < 56`): zero, plus block 0, plus block 1, …, plus block `n`, added
    in this order, left to right. -/
def accUpTo (h : SH.Idx → EReal) (wd : SD.Idx → EReal) (t : Fin 512) (j : Fin 4096) : (n : ℕ) → n < 56 → EReal
  | 0, hn => 0 + blockTerm h wd t j ⟨0, hn⟩
  | n + 1, hn => accUpTo h wd t j n (Nat.lt_of_succ_lt hn) + blockTerm h wd t j ⟨n + 1, hn⟩

end Cert.Spec

end
-- ==== Proof.KI.ValueH.lean ====
/-
  REGION 0's value at the ideal instance: after the region's 56 write-backs the hidden array holds, at every index, the
  SwiGLU activation of the specification — whatever it held before, since the 56 column blocks of 256 cover it.

  Point i writes columns [256 i, 256 i + 256); at row t and column 256 i + r the stored value is
  (g · logistic g) · u with g the product of row t of x with column 256 i + r of w's gate half, u the same with the up
  half (column 14336 + 256 i + r of w): the changes of float format are the identity at the ideal values, and a matrix
  product into a zero accumulator is the plain sum over the contracted axis.
-/
import proofs.«170557_j678604833229_1_alg».proof.Proof.Gen.KernelIdeal.Launch
import proofs.«170557_j678604833229_1_alg».proof.Proof.Gen.KernelIdeal.Skeleton
import proofs.«170557_j678604833229_1_alg».proof.Proof.Gen.KernelIdeal.Points
import proofs.«170557_j678604833229_1_alg».proof.Proof.KI.Reg0
import proofs.«170557_j678604833229_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

-- the TensorCore's buffer contents when the region is entered, at the ideal values
variable (V : (c : Dev nD) → (b : Ref sig .tc) → Buf (Elt Ideal) ((c : Thread nD τ).loc b))

/-! ## The projection's matrix product at an index

The contraction runs over the one shared axis of extent 4096: at row `p` and column `q` the product into a zero
accumulator is the sum over `k` of the left operand at `(p, k)` times the right operand at `(k, q)`. -/

theorem lhs_proj_0 (i : S512x256.Idx) (q : dot_S512x4096_S4096x256_S512x256_1_0_0_1_n_n.contr.Idx) :
    (dot_S512x4096_S4096x256_S512x256_1_0_0_1_n_n.lhsIdx i q 0).val = (i 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl
theorem lhs_proj_1 (i : S512x256.Idx) (q : dot_S512x4096_S4096x256_S512x256_1_0_0_1_n_n.contr.Idx) :
    (dot_S512x4096_S4096x256_S512x256_1_0_0_1_n_n.lhsIdx i q 1).val = (q ⟨0, by decide⟩).val :=
  dot_S512x4096_S4096x256_S512x256_1_0_0_1_n_n.lhsIdx_val_of_single rfl i q
theorem rhs_proj_0 (i : S512x256.Idx) (q : dot_S512x4096_S4096x256_S512x256_1_0_0_1_n_n.contr.Idx) :
    (dot_S512x4096_S4096x256_S512x256_1_0_0_1_n_n.rhsIdx i q 0).val = (q ⟨0, by decide⟩).val :=
  dot_S512x4096_S4096x256_S512x256_1_0_0_1_n_n.rhsIdx_val_of_single rfl i q
theorem rhs_proj_1 (i : S512x256.Idx) (q : dot_S512x4096_S4096x256_S512x256_1_0_0_1_n_n.contr.Idx) :
    (dot_S512x4096_S4096x256_S512x256_1_0_0_1_n_n.rhsIdx i q 1).val = (i 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl

/-- The product of a `[512, 4096]` block with a `[4096, 256]` block into the zero accumulator, at `(p, q)`. -/
theorem projProduct_apply (a : FVec Ideal S512x4096 .bf16) (b : FVec Ideal S4096x256 .bf16) (p : Fin 512) (q : Fin 256) :
    matmul (F := Ideal) dot_S512x4096_S4096x256_S512x256_1_0_0_1_n_n none a b (constant (F := Ideal) S512x256 .f32 0x00000000#32) (ix2 p q)
      = ∑ k : Fin 4096, a (ix2 p k) * b (ix2 k q) := by
  show FloatOps.matmul dot_S512x4096_S4096x256_S512x256_1_0_0_1_n_n none a b (constant (F := Ideal) S512x256 .f32 0x00000000#32) (ix2 p q) = _
  rw [Ideal.matmul_constant_zero_apply, ← Equiv.sum_comp (contrEquiv1 dot_S512x4096_S4096x256_S512x256_1_0_0_1_n_n 4096 rfl rfl).symm]
  refine Finset.sum_congr rfl fun k _ => ?_
  have hk := contrEquiv1_symm_val dot_S512x4096_S4096x256_S512x256_1_0_0_1_n_n 4096 rfl rfl k
  have el : dot_S512x4096_S4096x256_S512x256_1_0_0_1_n_n.lhsIdx (ix2 p q) ((contrEquiv1 dot_S512x4096_S4096x256_S512x256_1_0_0_1_n_n 4096 rfl rfl).symm k) = ix2 p k := funext fun a => Fin.ext (by
    match a with
    | ⟨0, _⟩ => exact lhs_proj_0 _ _
    | ⟨1, _⟩ => exact (lhs_proj_1 _ _).trans hk)
  have er : dot_S512x4096_S4096x256_S512x256_1_0_0_1_n_n.rhsIdx (ix2 p q) ((contrEquiv1 dot_S512x4096_S4096x256_S512x256_1_0_0_1_n_n 4096 rfl rfl).symm k) = ix2 k q := funext fun a => Fin.ext (by
    match a with
    | ⟨0, _⟩ => exact (rhs_proj_0 _ _).trans hk
    | ⟨1, _⟩ => exact rhs_proj_1 _ _)
  rw [el, er]

/-! ## The stored value at an index -/

/-- The body's stored value at row `p` and column `q` of the block: with `g` and `u` the products of row `p` of the
    first block with column `q` of the second and of the third, it is `(g · logistic g) · u`; the three narrowings of
    the operands and the narrowing of the result are the identity on extended reals. -/
theorem pay0_apply (x : Vec Ideal S512x4096 .f32) (wg wu : Vec Ideal S4096x256 .f32) (p : Fin 512) (q : Fin 256) :
    (k0_pay1 (F := Ideal) x wg wu) (ix2 p q)
      = ((∑ k : Fin 4096, x (ix2 p k) * wg (ix2 k q)) * Ideal.logistic (∑ k : Fin 4096, x (ix2 p k) * wg (ix2 k q)))
          * (∑ k : Fin 4096, x (ix2 p k) * wu (ix2 k q)) := by
  unfold k0_pay1
  show ((matmul (F := Ideal) dot_S512x4096_S4096x256_S512x256_1_0_0_1_n_n none (truncf .bf16 x bitsLt_bf16_f32) (truncf .bf16 wg bitsLt_bf16_f32) (constant (F := Ideal) S512x256 .f32 0x00000000#32) (ix2 p q))
      * Ideal.logistic (matmul (F := Ideal) dot_S512x4096_S4096x256_S512x256_1_0_0_1_n_n none (truncf .bf16 x bitsLt_bf16_f32) (truncf .bf16 wg bitsLt_bf16_f32) (constant (F := Ideal) S512x256 .f32 0x00000000#32) (ix2 p q)))
      * (matmul (F := Ideal) dot_S512x4096_S4096x256_S512x256_1_0_0_1_n_n none (truncf .bf16 x bitsLt_bf16_f32) (truncf .bf16 wu bitsLt_bf16_f32) (constant (F := Ideal) S512x256 .f32 0x00000000#32) (ix2 p q)) = _
  rw [projProduct_apply, projProduct_apply]
  rfl

/-! ## The windows' blocks in their arrays -/

/-- The two argument arrays as the region finds them, at their literal types. -/
abbrev xArr0 (c : Dev nD) : Cert.Spec.SX.Idx → EReal := V c main_arg0
abbrev wArr0 (c : Dev nD) : Cert.Spec.SW.Idx → EReal := V c main_arg1

/-- The three input blocks at point `t`, at their literal types. -/
abbrev xBlk0 (c : Dev nD) (t : Fin cfg0.N) : Vec Ideal S512x4096 .f32 := iblk0 (F := Ideal) V c 0 t
abbrev gBlk0 (c : Dev nD) (t : Fin cfg0.N) : Vec Ideal S4096x256 .f32 := iblk0 (F := Ideal) V c 1 t
abbrev uBlk0 (c : Dev nD) (t : Fin cfg0.N) : Vec Ideal S4096x256 .f32 := iblk0 (F := Ideal) V c 2 t

/-- The printed index maps over the grid: the first window always reads block `(0, 0)`, the whole of `x`; at point `t`
    the gate window reads block column `t` of `w`, the up window block column `56 + t`, and the output window writes
    block column `t` of the hidden array. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 56 + t.val
    ∧ win0_3.index t (0 : Fin 2) = 0 ∧ win0_3.index t (1 : Fin 2) = t.val :=
  (by decide +kernel : ∀ t : Fin grid0.N, _)

/-- The first window's block at any point is `x` itself. -/
theorem xBlk0_apply (c : Dev nD) (t : Fin cfg0.N) (p : Fin 512) (k : Fin 4096) :
    xBlk0 V c t (ix2 p k) = xArr0 V c (ix2 p k) := by
  obtain ⟨e0, e1, -⟩ := idx_facts0 t
  unfold xBlk0 iblk0
  rw [View.read_apply]
  show xArr0 V c _ = _
  congr 1
  funext a
  apply Fin.ext
  match a with
  | ⟨0, _⟩ => show win0_0.index t (0 : Fin 2) * 512 + 1 * p.val = p.val; omega
  | ⟨1, _⟩ => show win0_0.index t (1 : Fin 2) * 4096 + 1 * k.val = k.val; omega

/-- The gate window's block at point `t`: column `q` of the block is column `256 t + q` of `w`. -/
theorem gBlk0_apply (c : Dev nD) (t : Fin cfg0.N) (k : Fin 4096) (q : Fin 256) (n : Fin 28672) (hn : n.val = 256 * t.val + q.val) :
    gBlk0 V c t (ix2 k q) = wArr0 V c (ix2 k n) := by
  obtain ⟨-, -, e0, e1, -⟩ := idx_facts0 t
  unfold gBlk0 iblk0
  rw [View.read_apply]
  show wArr0 V c _ = _
  congr 1
  funext a
  apply Fin.ext
  match a with
  | ⟨0, _⟩ => show win0_1.index t (0 : Fin 2) * 4096 + 1 * k.val = k.val; omega
  | ⟨1, _⟩ => show win0_1.index t (1 : Fin 2) * 256 + 1 * q.val = n.val; omega

/-- The up window's block at point `t`: column `q` of the block is column `14336 + 256 t + q` of `w`. -/
theorem uBlk0_apply (c : Dev nD) (t : Fin cfg0.N) (k : Fin 4096) (q : Fin 256) (n : Fin 28672) (hn : n.val = 14336 + (256 * t.val + q.val)) :
    uBlk0 V c t (ix2 k q) = wArr0 V c (ix2 k n) := by
  obtain ⟨-, -, -, -, e0, e1, -⟩ := idx_facts0 t
  unfold uBlk0 iblk0
  rw [View.read_apply]
  show wArr0 V c _ = _
  congr 1
  funext a
  apply Fin.ext
  match a with
  | ⟨0, _⟩ => show win0_2.index t (0 : Fin 2) * 4096 + 1 * k.val = k.val; omega
  | ⟨1, _⟩ => show win0_2.index t (1 : Fin 2) * 256 + 1 * q.val = n.val; omega

/-! ## What a point writes back -/

/-- Point `t` writes back block column `t` of the specification's hidden array. -/
theorem flushed0_3_eq (c : Dev nD) (t : Fin cfg0.N) :
    (dat0 (F := Ideal) V c).flushed 3 t
      = ((cfg0.win 3).blk t).view.read (Elt Ideal) (Cert.Spec.hiddenArr (V c main_arg0) (V c main_arg1)) := by
  have ht : t.val < 56 := lt_of_lt_of_eq t.isLt N_0
  obtain ⟨-, -, -, -, -, -, e0, e1⟩ := idx_facts0 t
  show (cfg0.win 3).cut (grid0.coords t) ((dat0 (F := Ideal) V c).after 3 t) = _
  rw [after0_3]
  refine funext fun (j : S512x256.Idx) => ?_
  obtain ⟨p, q, rfl⟩ : ∃ (p : Fin 512) (q : Fin 256), j = ix2 p q := ⟨j 0, j 1, eq_ix2 j⟩
  rw [View.read_apply]
  have hemb : ((cfg0.win 3).blk t).view.emb (ix2 p q) = (ix2 p (Cert.Spec.colOf ⟨t.val, ht⟩ q) : Cert.Spec.SH.Idx) := by
    funext a
    apply Fin.ext
    match a with
    | ⟨0, _⟩ => show win0_3.index t (0 : Fin 2) * 512 + 1 * p.val = p.val; omega
    | ⟨1, _⟩ => show win0_3.index t (1 : Fin 2) * 256 + 1 * q.val = 256 * t.val + q.val; omega
  rw [hemb]
  show k0_pay1 (F := Ideal) (xBlk0 V c t) (gBlk0 V c t) (uBlk0 V c t) (ix2 p q)
    = Cert.Spec.hidden (xArr0 V c) (wArr0 V c) p (Cert.Spec.colOf ⟨t.val, ht⟩ q)
  refine (pay0_apply (xBlk0 V c t) (gBlk0 V c t) (uBlk0 V c t) p q).trans ?_
  have hg : (∑ k : Fin 4096, xBlk0 V c t (ix2 p k) * gBlk0 V c t (ix2 k q))
      = Cert.Spec.gate (xArr0 V c) (wArr0 V c) p (Cert.Spec.colOf ⟨t.val, ht⟩ q) :=
    Finset.sum_congr rfl fun k _ => by
      rw [xBlk0_apply V c t p k, gBlk0_apply V c t k q (Cert.Spec.colG (Cert.Spec.colOf ⟨t.val, ht⟩ q)) rfl]
  have hu : (∑ k : Fin 4096, xBlk0 V c t (ix2 p k) * uBlk0 V c t (ix2 k q))
      = Cert.Spec.up (xArr0 V c) (wArr0 V c) p (Cert.Spec.colOf ⟨t.val, ht⟩ q) :=
    Finset.sum_congr rfl fun k _ => by
      rw [xBlk0_apply V c t p k, uBlk0_apply V c t k q (Cert.Spec.colU (Cert.Spec.colOf ⟨t.val, ht⟩ q)) rfl]
  rw [hg, hu]
  rfl

/-! ## The 56 blocks cover the hidden array -/

/-- An index of the hidden array is in point `t`'s block iff each coordinate is in the block's range on its axis. -/
theorem mem_blk0_3 (t : Fin cfg0.N) (i : S512x14336.Idx) :
    i ∈ ((cfg0.win 3).blk t).view.set ↔ ∀ a : Fin 2, win0_3.index t a * S512x256.size a ≤ (i a).val ∧ (i a).val < win0_3.index t a * S512x256.size a + S512x256.size a := by
  show i ∈ ((View.whole main_v0).slice (win0_3.rect t)).set ↔ _
  rw [View.set_slice_whole, Rect.mem_set_unit]
  exact Iff.rfl

/-- Column `n` of the hidden array lies in the block of point `n / 256`, which is written back. -/
theorem coverCols0_3 (i : S512x14336.Idx) :
    ∃ t : Fin cfg0.N, (cfg0.win 3).flush t = true ∧ i ∈ ((cfg0.win 3).blk t).view.set := by
  have hi0 : (i 0).val < 512 := (i 0).isLt
  have hi1 : (i 1).val < 14336 := (i 1).isLt
  have hlt : (i 1).val / 256 < cfg0.N := by rw [show cfg0.N = 56 from N_0]; omega
  obtain ⟨-, -, -, -, -, -, e0, e1⟩ := idx_facts0 ⟨(i 1).val / 256, hlt⟩
  have e1' : win0_3.index ⟨(i 1).val / 256, hlt⟩ (1 : Fin 2) = (i 1).val / 256 := e1
  refine ⟨⟨(i 1).val / 256, hlt⟩, flush0_3 _, ?_⟩
  rw [mem_blk0_3]
  intro a
  match a with
  | ⟨0, _⟩ =>
    show win0_3.index ⟨(i 1).val / 256, hlt⟩ (0 : Fin 2) * 512 ≤ (i 0).val ∧ (i 0).val < win0_3.index ⟨(i 1).val / 256, hlt⟩ (0 : Fin 2) * 512 + 512
    omega
  | ⟨1, _⟩ =>
    show win0_3.index ⟨(i 1).val / 256, hlt⟩ (1 : Fin 2) * 256 ≤ (i 1).val ∧ (i 1).val < win0_3.index ⟨(i 1).val / 256, hlt⟩ (1 : Fin 2) * 256 + 256
    omega

/-! ## The hidden array after the region -/

/-- After region 0 the hidden array is the specification's, as a whole array. -/
theorem hidden_final (c : Dev nD) :
    (dat0 (F := Ideal) V c).arrAt 3 cfg0.N = Cert.Spec.hiddenArr (V c main_arg0) (V c main_arg1) :=
  (dat0 (F := Ideal) V c).arrAt_eq_of_cover 3 (Cert.Spec.hiddenArr (V c main_arg0) (V c main_arg1))
    (fun t _ => flushed0_3_eq V c t) (fun i => coverCols0_3 i)

end Cert.KernelIdeal.Hand

end
-- ==== Proof.KI.ValueO.lean ====
/-
  REGION 1's value at the ideal instance: after the region the result array holds, at row t and column j, the
  accumulator of the specification after its last step — zero, plus the 56 blocks' partial down projections of the
  hidden array the region found, added one per grid point in order.

  The output window covers the whole result array and is written back once, at the last point, with the accumulator's
  contents there; the accumulator after point n is the one before plus the product of the point's [512, 256] block of
  the hidden array with the point's [256, 4096] block of wd, and at the first point the zero fill plus that product.
-/
import proofs.«170557_j678604833229_1_alg».proof.Proof.Gen.KernelIdeal.Launch
import proofs.«170557_j678604833229_1_alg».proof.Proof.Gen.KernelIdeal.Skeleton
import proofs.«170557_j678604833229_1_alg».proof.Proof.Gen.KernelIdeal.Points
import proofs.«170557_j678604833229_1_alg».proof.Proof.KI.Reg1
import proofs.«170557_j678604833229_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

-- the TensorCore's buffer contents when the region is entered, at the ideal values
variable (V : (c : Dev nD) → (b : Ref sig .tc) → Buf (Elt Ideal) ((c : Thread nD τ).loc b))

/-! ## The payloads at an index -/

/-- The zero fill reads zero at every index: a broadcast of the zero word, cast to its own shape. -/
theorem zeroFill1_apply (p : Fin 512) (q : Fin 4096) : (k1_pay1 (F := Ideal)) (ix2 p q) = 0 := by
  unfold k1_pay1
  refine (congrFun (shapeCast_self _ _) (ix2 p q)).trans ?_
  exact Ideal.ofBits_zero_f32

/-- The left operand's index of the block product at output index `i` and contraction index `k`: row `i 0` … -/
theorem lhs_down_0 (i : S512x4096.Idx) (k : dot_S512x256_S256x4096_S512x4096_1_0_0_1_n_n.contr.Idx) :
    (dot_S512x256_S256x4096_S512x4096_1_0_0_1_n_n.lhsIdx i k 0).val = (i 0).val := by
  unfold DotDims.lhsIdx
  rw [dif_neg (show ¬(0 : Fin S512x256.rank) ∈ dot_S512x256_S256x4096_S512x4096_1_0_0_1_n_n.lhsBatch by decide), dif_pos (show (0 : Fin S512x256.rank) ∈ dot_S512x256_S256x4096_S512x4096_1_0_0_1_n_n.lhsNonContracting by decide)]
  rfl
/-- … and column the contraction coordinate. -/
theorem lhs_down_1 (i : S512x4096.Idx) (k : dot_S512x256_S256x4096_S512x4096_1_0_0_1_n_n.contr.Idx) :
    (dot_S512x256_S256x4096_S512x4096_1_0_0_1_n_n.lhsIdx i k 1).val = (k ⟨0, by decide⟩).val :=
  dot_S512x256_S256x4096_S512x4096_1_0_0_1_n_n.lhsIdx_val_of_single rfl i k
/-- The right operand's index: row the contraction coordinate … -/
theorem rhs_down_0 (i : S512x4096.Idx) (k : dot_S512x256_S256x4096_S512x4096_1_0_0_1_n_n.contr.Idx) :
    (dot_S512x256_S256x4096_S512x4096_1_0_0_1_n_n.rhsIdx i k 0).val = (k ⟨0, by decide⟩).val :=
  dot_S512x256_S256x4096_S512x4096_1_0_0_1_n_n.rhsIdx_val_of_single rfl i k
/-- … and column `i 1`. -/
theorem rhs_down_1 (i : S512x4096.Idx) (k : dot_S512x256_S256x4096_S512x4096_1_0_0_1_n_n.contr.Idx) :
    (dot_S512x256_S256x4096_S512x4096_1_0_0_1_n_n.rhsIdx i k 1).val = (i 1).val := by
  unfold DotDims.rhsIdx
  rw [dif_neg (show ¬(1 : Fin S256x4096.rank) ∈ dot_S512x256_S256x4096_S512x4096_1_0_0_1_n_n.rhsBatch by decide), dif_pos (show (1 : Fin S256x4096.rank) ∈ dot_S512x256_S256x4096_S512x4096_1_0_0_1_n_n.rhsNonContracting by decide)]
  rfl

/-- The block product into a zero accumulator, at row `p` and column `q`: the sum over the block's 256 intermediate
    columns of the hidden block's entry times the weight block's. -/
theorem downProduct_apply (hb : FVec Ideal S512x256 .bf16) (wb : FVec Ideal S256x4096 .bf16) (p : Fin 512) (q : Fin 4096) :
    matmul (F := Ideal) dot_S512x256_S256x4096_S512x4096_1_0_0_1_n_n none hb wb (constant (F := Ideal) S512x4096 .f32 0x00000000#32) (ix2 p q)
      = ∑ r : Fin 256, hb (ix2 p r) * wb (ix2 r q) := by
  refine (Ideal.matmul_constant_zero_apply dot_S512x256_S256x4096_S512x4096_1_0_0_1_n_n none hb wb (ix2 p q)).trans ?_
  rw [← Equiv.sum_comp (contrEquiv1 dot_S512x256_S256x4096_S512x4096_1_0_0_1_n_n 256 rfl rfl).symm]
  refine Finset.sum_congr rfl fun r _ => ?_
  have hr := contrEquiv1_symm_val dot_S512x256_S256x4096_S512x4096_1_0_0_1_n_n 256 rfl rfl r
  have el : dot_S512x256_S256x4096_S512x4096_1_0_0_1_n_n.lhsIdx (ix2 p q) ((contrEquiv1 dot_S512x256_S256x4096_S512x4096_1_0_0_1_n_n 256 rfl rfl).symm r) = ix2 p r := funext fun a => Fin.ext (by
    match a with
    | ⟨0, _⟩ => exact lhs_down_0 _ _
    | ⟨1, _⟩ => exact (lhs_down_1 _ _).trans hr)
  have er : dot_S512x256_S256x4096_S512x4096_1_0_0_1_n_n.rhsIdx (ix2 p q) ((contrEquiv1 dot_S512x256_S256x4096_S512x4096_1_0_0_1_n_n 256 rfl rfl).symm r) = ix2 r q := funext fun a => Fin.ext (by
    match a with
    | ⟨0, _⟩ => exact (rhs_down_0 _ _).trans hr
    | ⟨1, _⟩ => exact rhs_down_1 _ _)
  rw [el, er]

/-- The body's update at row `p` and column `q`: what the accumulator held there plus the block product (the weight
    block's narrowing to bf16 is the identity on the ideal values, and the shape casts are to the same shape). -/
theorem update1_apply (hb : Vec Ideal S512x256 .bf16) (wb : Vec Ideal S256x4096 .f32) (prev : Vec Ideal S512x4096 .f32)
    (p : Fin 512) (q : Fin 4096) :
    k1_pay2 hb wb prev (ix2 p q) = prev (ix2 p q) + ∑ r : Fin 256, hb (ix2 p r) * wb (ix2 r q) := by
  unfold k1_pay2
  refine (congrFun (shapeCast_self _ _) (ix2 p q)).trans ?_
  refine (addf_apply _ _ (ix2 p q)).trans ?_
  refine congrArg (prev (ix2 p q) + ·) ?_
  rw [shapeCast_self]
  exact downProduct_apply hb wb p q

/-! ## The blocks and the arrays, at their literal types -/

/-- The hidden array as the region finds it. -/
abbrev hArr1 (c : Dev nD) : Vec Ideal S512x14336 .bf16 := V c main_v0
/-- The down-projection weights as the region finds them. -/
abbrev wArr1 (c : Dev nD) : Vec Ideal S14336x4096 .f32 := V c main_arg2
/-- The hidden array's block at grid point `t`: its columns [256 t, 256 t + 256). -/
abbrev hBlk1 (c : Dev nD) (t : Fin cfg1.N) : Vec Ideal S512x256 .bf16 := iblk1 V c 0 t
/-- The weights' block at grid point `t`: their rows [256 t, 256 t + 256). -/
abbrev wBlk1 (c : Dev nD) (t : Fin cfg1.N) : Vec Ideal S256x4096 .f32 := iblk1 V c 1 t

/-- A grid point as a block number of the specification. -/
abbrev blockNo1 (t : Fin cfg1.N) : Fin 56 := ⟨t.val, by have := t.isLt; have h : cfg1.N = 56 := N_1; omega⟩

/-- The printed index maps over the grid: point `t` reads column block `t` of the hidden array and row block `t` of the
    weights, and the result window's one block is the whole array. -/
theorem idx_facts1 : ∀ t : Fin cfg1.N, win1_0.index t (0 : Fin 2) = 0 ∧ win1_0.index t (1 : Fin 2) = t.val
    ∧ win1_1.index t (0 : Fin 2) = t.val ∧ win1_1.index t (1 : Fin 2) = 0
    ∧ win1_2.index t (0 : Fin 2) = 0 ∧ win1_2.index t (1 : Fin 2) = 0 :=
  (by decide +kernel : ∀ t : Fin grid1.N, _)

/-- The hidden block at row `p` and column `r` is the hidden array at row `p` and intermediate column `256 t + r`. -/
theorem hBlk1_apply (c : Dev nD) (t : Fin cfg1.N) (p : Fin 512) (r : Fin 256) :
    hBlk1 V c t (ix2 p r) = hArr1 V c (ix2 p (Cert.Spec.colOf (blockNo1 t) r)) := by
  show hArr1 V c (((cfg1.win 0).blk t).view.emb (ix2 p r)) = _
  refine congrArg (hArr1 V c) ?_
  obtain ⟨e0, e1, -⟩ := idx_facts1 t
  funext a; apply Fin.ext
  match a with
  | ⟨0, _⟩ => show win1_0.index t (0 : Fin 2) * 512 + 1 * p.val = p.val; omega
  | ⟨1, _⟩ => show win1_0.index t (1 : Fin 2) * 256 + 1 * r.val = 256 * t.val + r.val; omega

/-- The weight block at row `r` and column `q` is the weights at intermediate row `256 t + r` and column `q`. -/
theorem wBlk1_apply (c : Dev nD) (t : Fin cfg1.N) (r : Fin 256) (q : Fin 4096) :
    wBlk1 V c t (ix2 r q) = wArr1 V c (ix2 (Cert.Spec.colOf (blockNo1 t) r) q) := by
  show wArr1 V c (((cfg1.win 1).blk t).view.emb (ix2 r q)) = _
  refine congrArg (wArr1 V c) ?_
  obtain ⟨-, -, e2, e3, -⟩ := idx_facts1 t
  funext a; apply Fin.ext
  match a with
  | ⟨0, _⟩ => show win1_1.index t (0 : Fin 2) * 256 + 1 * r.val = 256 * t.val + r.val; omega
  | ⟨1, _⟩ => show win1_1.index t (1 : Fin 2) * 4096 + 1 * q.val = q.val; omega

/-- The point's partial product is the specification's block term. -/
theorem blockSum1_eq (c : Dev nD) (t : Fin cfg1.N) (p : Fin 512) (q : Fin 4096) :
    ∑ r : Fin 256, hBlk1 V c t (ix2 p r) * wBlk1 V c t (ix2 r q)
      = Cert.Spec.blockTerm (hArr1 V c) (wArr1 V c) p q (blockNo1 t) := by
  unfold Cert.Spec.blockTerm
  exact Finset.sum_congr rfl fun r _ => congrArg₂ (· * ·) (hBlk1_apply V c t p r) (wBlk1_apply V c t r q)

/-! ## The accumulator is the specification's -/

/-- After grid point `n` the carried accumulator holds, at row `p` and column `q`, the specification's accumulator
    after step `n`: by induction on the point, the first point adding its block to the zero fill and every later one
    to what the point before left. -/
theorem acc1_apply (c : Dev nD) (p : Fin 512) (q : Fin 4096) : ∀ (n : ℕ) (hn : n < cfg1.N) (hn' : n < 56),
    acc1 (F := Ideal) V c n hn (ix2 p q) = Cert.Spec.accUpTo (hArr1 V c) (wArr1 V c) p q n hn'
  | 0, hn, hn' => by
    refine (congrFun (acc1_zero V c hn) (ix2 p q)).trans ?_
    refine (update1_apply (hBlk1 V c ⟨0, hn⟩) (wBlk1 V c ⟨0, hn⟩) (k1_pay1 (F := Ideal)) p q).trans ?_
    show _ = 0 + Cert.Spec.blockTerm (hArr1 V c) (wArr1 V c) p q ⟨0, hn'⟩
    exact congrArg₂ (· + ·) (zeroFill1_apply p q) (blockSum1_eq V c ⟨0, hn⟩ p q)
  | n + 1, hn, hn' => by
    refine (congrFun (acc1_succ V c n hn) (ix2 p q)).trans ?_
    refine (update1_apply (hBlk1 V c ⟨n + 1, hn⟩) (wBlk1 V c ⟨n + 1, hn⟩) (acc1 V c n (Nat.lt_of_succ_lt hn)) p q).trans ?_
    show _ = Cert.Spec.accUpTo (hArr1 V c) (wArr1 V c) p q n (Nat.lt_of_succ_lt hn')
      + Cert.Spec.blockTerm (hArr1 V c) (wArr1 V c) p q ⟨n + 1, hn'⟩
    exact congrArg₂ (· + ·) (acc1_apply c p q n (Nat.lt_of_succ_lt hn) (Nat.lt_of_succ_lt hn')) (blockSum1_eq V c ⟨n + 1, hn⟩ p q)

/-- The specification's accumulator depends on the step only through its number. -/
theorem accUpTo_step_congr (h : Cert.Spec.SH.Idx → EReal) (wd : Cert.Spec.SD.Idx → EReal) (p : Fin 512) (q : Fin 4096) {n m : ℕ}
    (e : n = m) (hn : n < 56) (hm : m < 56) : Cert.Spec.accUpTo h wd p q n hn = Cert.Spec.accUpTo h wd p q m hm := by
  subst e; rfl

/-! ## From the last point's write-back to the array -/

/-- The specification's accumulator after its last step, as a whole array. -/
abbrev lastAcc1 (c : Dev nD) : Vec Ideal S512x4096 .f32 :=
  fun i => Cert.Spec.accUpTo (hArr1 V c) (wArr1 V c) (i 0) (i 1) 55 (by decide)

/-- At the last point the accumulator, read at an index, is that array at any index with the same coordinates. -/
theorem acc1_last_apply (c : Dev nD) (t : Fin cfg1.N) (h55 : t.val = 55) (j i : S512x4096.Idx)
    (h0 : (i 0).val = (j 0).val) (h1 : (i 1).val = (j 1).val) :
    acc1 (F := Ideal) V c t.val t.isLt j = lastAcc1 V c i := by
  obtain rfl : i = j := Shape.idx_ext₂ h0 h1
  obtain ⟨p, q, rfl⟩ : ∃ (p : Fin 512) (q : Fin 4096), i = ix2 p q := ⟨i 0, i 1, eq_ix2 i⟩
  refine (acc1_apply V c p q t.val t.isLt (by omega)).trans ?_
  exact accUpTo_step_congr (hArr1 V c) (wArr1 V c) p q h55 _ _

/-- What the one point that writes the result window back writes is that array, read through the point's block. -/
theorem flushed1_2_eq (c : Dev nD) (t : Fin cfg1.N) (hf : (cfg1.win 2).flush t = true) :
    (dat1 (F := Ideal) V c).flushed 2 t = ((cfg1.win 2).blk t).view.read (Elt Ideal) (lastAcc1 V c) := by
  have h55 : t.val = 55 := by
    have h := (flush1_2 t).mp hf; have := t.isLt; have hN : cfg1.N = 56 := N_1; omega
  show (cfg1.win 2).cut (grid1.coords t) ((dat1 (F := Ideal) V c).after 2 t) = _
  rw [after1_2]
  obtain ⟨-, -, -, -, e4, e5⟩ := idx_facts1 t
  funext j
  refine acc1_last_apply V c t h55 ((cfg1.win 2).xinj (grid1.coords t) j) (((cfg1.win 2).blk t).view.emb j) ?_ ?_
  · show win1_2.index t (0 : Fin 2) * 512 + 1 * (j 0).val = (j 0).val; omega
  · show win1_2.index t (1 : Fin 2) * 4096 + 1 * (j 1).val = (j 1).val; omega

/-- An index of the result array is in point `t`'s block iff each coordinate is in the block's range on its axis. -/
theorem mem_blk1_2 (t : Fin cfg1.N) (i : S512x4096.Idx) :
    i ∈ ((cfg1.win 2).blk t).view.set ↔ ∀ a : Fin 2, win1_2.index t a * S512x4096.size a ≤ (i a).val ∧ (i a).val < win1_2.index t a * S512x4096.size a + S512x4096.size a := by
  show i ∈ ((View.whole main_v1).slice (win1_2.rect t)).set ↔ _
  rw [View.set_slice_whole, Rect.mem_set_unit]
  exact Iff.rfl

/-- The last point's block is the whole result array. -/
theorem cover1_2 (i : S512x4096.Idx) : ∃ t : Fin cfg1.N, (cfg1.win 2).flush t = true ∧ i ∈ ((cfg1.win 2).blk t).view.set := by
  have hN : 55 < cfg1.N := by have h : cfg1.N = 56 := N_1; omega
  refine ⟨⟨55, hN⟩, (flush1_2 ⟨55, hN⟩).mpr rfl, ?_⟩
  obtain ⟨-, -, -, -, e4, e5⟩ := idx_facts1 ⟨55, hN⟩
  rw [mem_blk1_2]
  intro a
  match a with
  | ⟨0, _⟩ =>
    have hi : (i 0).val < 512 := (i 0).isLt
    show win1_2.index ⟨55, hN⟩ (0 : Fin 2) * 512 ≤ (i 0).val ∧ (i 0).val < win1_2.index ⟨55, hN⟩ (0 : Fin 2) * 512 + 512
    omega
  | ⟨1, _⟩ =>
    have hi : (i 1).val < 4096 := (i 1).isLt
    show win1_2.index ⟨55, hN⟩ (1 : Fin 2) * 4096 ≤ (i 1).val ∧ (i 1).val < win1_2.index ⟨55, hN⟩ (1 : Fin 2) * 4096 + 4096
    omega

/-- After region 1 the result array is the specification's accumulator after its last step, as a whole array, over
    the hidden array and the down-projection weights the region finds. -/
theorem out_final (c : Dev nD) :
    (dat1 (F := Ideal) V c).arrAt 2 cfg1.N
      = fun i => Cert.Spec.accUpTo (V c main_v0) (V c main_arg2) (i 0) (i 1) 55 (by decide) :=
  (dat1 (F := Ideal) V c).arrAt_eq_of_cover 2 (lastAcc1 V c) (fun t hf => flushed1_2_eq V c t hf) cover1_2

end Cert.KernelIdeal.Hand

end
-- ==== Proof.SpecLaws.lean ====
/-
  The one algebraic law that joins the two programs: a sum over the 14336 intermediate columns is the sum, over the 56
  blocks, of the sums over each block's 256 columns; and the accumulator built by adding the blocks one at a time to zero
  is that sum. Only commutativity and associativity of addition are used, which hold on the extended reals without
  any finiteness assumption.
-/
import proofs.«170557_j678604833229_1_alg».proof.Proof.Spec
import Mathlib.Algebra.BigOperators.Fin

noncomputable section

open scoped BigOperators

namespace Cert.Spec

open Idealize.ShloMosaic Idealize.ShloMosaic.ValueIdx

/-- The 56 blocks of 256 offsets enumerate the 14336 intermediate columns: `(kb, r) ↦ r + 256 * kb`. -/
private def blockEquiv : Fin 56 × Fin 256 ≃ Fin 14336 :=
  (finProdFinEquiv (m := 56) (n := 256)).trans (finCongr (by norm_num))

/-- That enumeration is `colOf`: `r + 256 * kb = 256 * kb + r`. -/
private theorem blockEquiv_apply (x : Fin 56 × Fin 256) : blockEquiv x = colOf x.1 x.2 := by
  apply Fin.ext
  simp only [blockEquiv, colOf, Equiv.trans_apply, finCongr_apply, Fin.val_cast, finProdFinEquiv_apply_val]
  exact Nat.add_comm _ _

/-- A sum over the 14336 intermediate columns, regrouped by blocks of 256. -/
theorem sum_blocks {M : Type*} [AddCommMonoid M] (f : Fin 14336 → M) :
    ∑ n : Fin 14336, f n = ∑ kb : Fin 56, ∑ r : Fin 256, f (colOf kb r) := by
  -- the pair (block, offset) ↦ offset + 256 * block is a bijection onto the 56 * 256 = 14336 columns
  rw [← Fintype.sum_prod_type' (fun (kb : Fin 56) (r : Fin 256) => f (colOf kb r))]
  refine (Fintype.sum_equiv (blockEquiv) (fun x : Fin 56 × Fin 256 => f (colOf x.1 x.2)) f ?_).symm
  intro x
  rw [blockEquiv_apply]

/-- The accumulator after step `n` is the sum of the blocks up to and including `n`. -/
theorem accUpTo_eq_sum (h : SH.Idx → EReal) (wd : SD.Idx → EReal) (t : Fin 512) (j : Fin 4096) (n : ℕ) (hn : n < 56) :
    accUpTo h wd t j n hn = ∑ kb ∈ Finset.univ.filter (fun kb : Fin 56 => kb.val ≤ n), blockTerm h wd t j kb := by
  induction n with
  | zero =>
    -- the only block with index ≤ 0 is block 0
    have hf : Finset.univ.filter (fun kb : Fin 56 => kb.val ≤ 0) = {(⟨0, hn⟩ : Fin 56)} := by
      ext kb
      simp only [Finset.mem_filter, Finset.mem_univ, true_and, Finset.mem_singleton, Fin.ext_iff]
      omega
    rw [hf, Finset.sum_singleton]
    simp only [accUpTo]
    rw [zero_add]
  | succ n ih =>
    -- the blocks with index ≤ n + 1 are those with index ≤ n together with block n + 1
    have hf : Finset.univ.filter (fun kb : Fin 56 => kb.val ≤ n + 1)
        = insert (⟨n + 1, hn⟩ : Fin 56) (Finset.univ.filter (fun kb : Fin 56 => kb.val ≤ n)) := by
      ext kb
      simp only [Finset.mem_filter, Finset.mem_univ, true_and, Finset.mem_insert, Fin.ext_iff]
      omega
    have hnot : (⟨n + 1, hn⟩ : Fin 56) ∉ Finset.univ.filter (fun kb : Fin 56 => kb.val ≤ n) := by
      simp only [Finset.mem_filter, Finset.mem_univ, true_and]
      omega
    rw [hf, Finset.sum_insert hnot, ← ih (Nat.lt_of_succ_lt hn),
      add_comm (blockTerm h wd t j ⟨n + 1, hn⟩)]
    simp only [accUpTo]

/-- After the last step the accumulator is the whole down projection of `h`. -/
theorem accUpTo_last (h : SH.Idx → EReal) (wd : SD.Idx → EReal) (t : Fin 512) (j : Fin 4096) :
    accUpTo h wd t j 55 (by decide) = ∑ n : Fin 14336, h (ix2 t n) * wd (ix2 n j) := by
  -- every block index is ≤ 55
  have hf : Finset.univ.filter (fun kb : Fin 56 => kb.val ≤ 55) = Finset.univ := by
    ext kb
    simp only [Finset.mem_filter, Finset.mem_univ, true_and, iff_true]
    have := kb.isLt
    omega
  rw [accUpTo_eq_sum, hf, sum_blocks (fun n : Fin 14336 => h (ix2 t n) * wd (ix2 n j))]
  simp only [blockTerm]

/-- With the hidden activations for `h`, that is the specified result. -/
theorem accUpTo_last_hidden (x : SX.Idx → EReal) (w : SW.Idx → EReal) (wd : SD.Idx → EReal) (t : Fin 512) (j : Fin 4096) :
    accUpTo (hiddenArr x w) wd t j 55 (by decide) = out x w wd t j := by
  rw [accUpTo_last]
  -- coordinate 0 of the index (t, n) is t and coordinate 1 is n
  simp only [out]
  exact Finset.sum_congr rfl (fun n _ => rfl)

end Cert.Spec

end
-- ==== Proof.RefValue.lean ====
/-
  The reference's result, read at an index: the host program's last stage, as a function of the three argument arrays,
  is the specified function `Cert.Spec.G`.

  The reference computes gate_up = x · w in one product, takes its left and right halves of 14336 columns as gate and up,
  forms silu(gate) · up with silu g = g · (1 / (1 + exp (−g))), and multiplies by wd in one product. At the ideal values
  1 / (1 + exp (−g)) is the logistic function of g, on every extended real.
-/
import proofs.«170557_j678604833229_1_alg».proof.Proof.Gen.ReferenceIdeal.Run
import proofs.«170557_j678604833229_1_alg».proof.Proof.Gen.ReferenceIdeal.Read
import proofs.«170557_j678604833229_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.ShloMosaic.ValueIdx

/-- The single-precision word 0x3F800000 is the number one. -/
theorem ofBits_one : Ideal.ofBits .f32 0x3F800000#32 = 1 := by
  simp [Ideal.ofBits, Ideal.ieee, -EReal.coe_mul]; norm_num

/-- The first product's left operand index at result index (t, c) and contraction coordinate k is (t, k). -/
theorem lidx_v0_ix2 (t : Fin 512) (c : Fin 28672) (k : Fin 4096) :
    Read.lidx_main_v0 (ix2 t c) k = ix2 t k :=
  funext fun a => Fin.ext (by match a with | ⟨0, _⟩ => rfl | ⟨1, _⟩ => rfl)

/-- The first product's right operand index at result index (t, c) and contraction coordinate k is (k, c). -/
theorem ridx_v0_ix2 (t : Fin 512) (c : Fin 28672) (k : Fin 4096) :
    Read.ridx_main_v0 (ix2 t c) k = ix2 k c :=
  funext fun a => Fin.ext (by match a with | ⟨0, _⟩ => rfl | ⟨1, _⟩ => rfl)

/-- The left slice reads column n of the product at column n. -/
theorem idx_v1_ix2 (t : Fin 512) (n : Fin 14336) :
    Read.idx_main_v1 (ix2 t n) = ix2 t (Cert.Spec.colG n) :=
  funext fun a => Fin.ext (by match a with | ⟨0, _⟩ => rfl | ⟨1, _⟩ => rfl)

/-- The right slice reads column n of the product at column 14336 + n. -/
theorem idx_v2_ix2 (t : Fin 512) (n : Fin 14336) :
    Read.idx_main_v2 (ix2 t n) = ix2 t (Cert.Spec.colU n) :=
  funext fun a => Fin.ext (by match a with | ⟨0, _⟩ => rfl | ⟨1, _⟩ => rfl)

/-- The second product's left operand index at result index (t, j) and contraction coordinate n is (t, n). -/
theorem lidx_v5_ix2 (t : Fin 512) (j : Fin 4096) (n : Fin 14336) :
    Read.lidx_main_v5 (ix2 t j) n = ix2 t n :=
  funext fun a => Fin.ext (by match a with | ⟨0, _⟩ => rfl | ⟨1, _⟩ => rfl)

/-- The second product's right operand index at result index (t, j) and contraction coordinate n is (n, j). -/
theorem ridx_v5_ix2 (t : Fin 512) (j : Fin 4096) (n : Fin 14336) :
    Read.ridx_main_v5 (ix2 t j) n = ix2 n j :=
  funext fun a => Fin.ext (by match a with | ⟨0, _⟩ => rfl | ⟨1, _⟩ => rfl)

/-- The left half of the first product is the gate pre-activation. -/
theorem val_v1_gate (x0 : (⟨S512x4096, .f32⟩ : BufTy).Contents (Elt Ideal)) (x1 : (⟨S4096x28672, .f32⟩ : BufTy).Contents (Elt Ideal))
    (t : Fin 512) (n : Fin 14336) :
    Read.val_main_v1 (F := Ideal) x0 x1 (ix2 t n) = Cert.Spec.gate x0 x1 t n := by
  rw [Read.val_main_v1_apply, idx_v1_ix2, Read.val_main_v0_apply]
  simp only [lidx_v0_ix2, ridx_v0_ix2]
  rfl

/-- The right half of the first product is the up projection. -/
theorem val_v2_up (x0 : (⟨S512x4096, .f32⟩ : BufTy).Contents (Elt Ideal)) (x1 : (⟨S4096x28672, .f32⟩ : BufTy).Contents (Elt Ideal))
    (t : Fin 512) (n : Fin 14336) :
    Read.val_main_v2 (F := Ideal) x0 x1 (ix2 t n) = Cert.Spec.up x0 x1 t n := by
  rw [Read.val_main_v2_apply, idx_v2_ix2, Read.val_main_v0_apply]
  simp only [lidx_v0_ix2, ridx_v0_ix2]
  rfl

/-- The reference's quotient 1 / (1 + exp (−g)) is the logistic function of the gate pre-activation. -/
theorem val_call0_v5_logistic (x0 : (⟨S512x4096, .f32⟩ : BufTy).Contents (Elt Ideal)) (x1 : (⟨S4096x28672, .f32⟩ : BufTy).Contents (Elt Ideal))
    (t : Fin 512) (n : Fin 14336) :
    Read.val_main_call0_v5 (F := Ideal) x0 x1 (ix2 t n) = Ideal.logistic (Cert.Spec.gate x0 x1 t n) := by
  rw [Read.val_main_call0_v5_apply, Read.val_main_call0_v4_apply, Read.val_main_call0_cst_0_apply,
    Read.val_main_call0_v3_apply, Read.val_main_call0_v2_apply, Read.val_main_call0_cst_apply,
    Read.val_main_call0_v1_apply, Read.val_main_call0_v0_apply, val_v1_gate]
  simp only [Ideal.hostDivf_def, Ideal.addf_def, Ideal.hostUnary_exp_def, Ideal.hostNegf_def, Ideal.negf_def, Ideal.ofBits_def,
    ofBits_one]
  rfl

/-- The reference's fourth stage is the hidden activation silu(gate) · up. -/
theorem val_v4_hidden (x0 : (⟨S512x4096, .f32⟩ : BufTy).Contents (Elt Ideal)) (x1 : (⟨S4096x28672, .f32⟩ : BufTy).Contents (Elt Ideal))
    (t : Fin 512) (n : Fin 14336) :
    Read.val_main_v4 (F := Ideal) x0 x1 (ix2 t n) = Cert.Spec.hidden x0 x1 t n := by
  rw [Read.val_main_v4_apply, Read.val_main_v3_apply, val_v1_gate, val_call0_v5_logistic, val_v2_up]
  rfl

/-- The reference's last stage is the specified result, as whole arrays. -/
theorem val_eq_G (x0 : (⟨S512x4096, .f32⟩ : BufTy).Contents (Elt Ideal)) (x1 : (⟨S4096x28672, .f32⟩ : BufTy).Contents (Elt Ideal))
    (x2 : (⟨S14336x4096, .f32⟩ : BufTy).Contents (Elt Ideal)) :
    Cert.ReferenceIdeal.Read.val_main_v5 (F := Ideal) x0 x1 x2 = Cert.Spec.G x0 x1 x2 := by
  funext i
  obtain ⟨t, j, rfl⟩ : ∃ (t : Fin 512) (j : Fin 4096), i = ix2 t j := ⟨i 0, i 1, eq_ix2 i⟩
  rw [Read.val_main_v5_apply]
  simp only [lidx_v5_ix2, ridx_v5_ix2, val_v4_hidden]
  rfl

end Cert.ReferenceIdeal.RefValue

end
-- ==== Proof.lean ====
/-
  The certificate: the SwiGLU feed-forward kernel against its reference, over the extended reals.

  Both programs compute, for x : [512, 4096], w : [4096, 28672] and wd : [14336, 4096],
      out = (silu(x · w_gate) * (x · w_up)) · wd,       silu g = g · logistic g,
  with w_gate and w_up the left and right halves of w (`Cert.Spec.G`). The kernel does it in two regions: the first
  computes the hidden activations a block of 256 columns at a time, reading the gate and the up columns of w through two
  windows on the one array; the second accumulates the down projection over those 56 blocks in a scratch buffer, zeroed
  at the first grid point and copied out at the last. The reference does each product at once and spells the logistic
  function as 1 / (1 + exp (−g)).

  What joins them: at the ideal values a change of float format is the identity, a matrix product into a zero
  accumulator is the plain sum over the contracted axis, 1 / (1 + exp (−g)) is the logistic function on every extended
  real, and a sum over 14336 columns is the sum of its 56 blocks' sums — addition on the extended reals being
  commutative and associative with no finiteness assumption, so the precondition is never opened.

  The frames: each kernel program's run is proved once at any float instance (region by region: each region's body
  obligation, the entry and exit of its arrays among the core's unscoped buffers, the launch), and read at the
  arguments; the reference's frame is its run with the result dropped. The ideal pass rewrote nothing, so
  `preserves` has no conjunct.
-/
import proofs.«170557_j678604833229_1_alg».proof.Defs
import proofs.«170557_j678604833229_1_alg».proof.Proof.Gen.Kernel
import proofs.«170557_j678604833229_1_alg».proof.Proof.Gen.KernelIdeal
import proofs.«170557_j678604833229_1_alg».proof.Proof.Gen.ReferenceIdeal
import proofs.«170557_j678604833229_1_alg».proof.Proof.Gen.Pre_finite_inputs
import proofs.«170557_j678604833229_1_alg».proof.Proof.K.Run
import proofs.«170557_j678604833229_1_alg».proof.Proof.KI.Run
import proofs.«170557_j678604833229_1_alg».proof.Proof.KI.ValueH
import proofs.«170557_j678604833229_1_alg».proof.Proof.KI.ValueO
import proofs.«170557_j678604833229_1_alg».proof.Proof.SpecLaws
import proofs.«170557_j678604833229_1_alg».proof.Proof.RefValue
import Idealize.ShloMosaic.Adequacy
import Idealize.ShloMosaic.Init

noncomputable section

namespace Cert.Proof

open Idealize.ShloMosaic Idealize.ShloMosaic.TcCoe Idealize.SL.Sem

/-! ## The frames -/

theorem frame_k : Cert.frame_Kernel := fun m ρ _ => Cert.Kernel.Hand.frame_all (F := Bits) m ρ

theorem frame_ki : Cert.frame_KernelIdeal := fun m ρ _ => Cert.KernelIdeal.Hand.frame_all (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-! ## The value -/

section Value

open Cert.KernelIdeal Cert.KernelIdeal.Gen Cert.KernelIdeal.Hand

/-- The kernel's result array after the run, at the ideal values, is the specified function of the launch arrays:
    region 1 leaves the accumulator's last value over the hidden array region 0 left, which is the specification's
    hidden array; the blocks' sum is the whole down projection. -/
theorem kernel_result (m : (ℓ : Loc nD τ sig) → Buf (Elt Ideal) ℓ) (c : Dev nD) :
    (dat1 (F := Ideal) (V1 m) c).arrAt 2 cfg1.N
      = Cert.Spec.G (m ((c.tc : Thread nD τ).loc main_arg0)) (m ((c.tc : Thread nD τ).loc main_arg1)) (m ((c.tc : Thread nD τ).loc main_arg2)) := by
  rw [out_final (V1 m) c]
  funext i
  have hh : V1 m c main_v0 = Cert.Spec.hiddenArr (m ((c.tc : Thread nD τ).loc main_arg0)) (m ((c.tc : Thread nD τ).loc main_arg1)) :=
    (V1_main_v0 m c).trans (hidden_final (V0 m) c)
  have hw : V1 m c main_arg2 = m ((c.tc : Thread nD τ).loc main_arg2) := V1_main_arg2 m c
  show Cert.Spec.accUpTo (V1 m c main_v0) (V1 m c main_arg2) (i 0) (i 1) 55 _ = _
  rw [hh, hw]
  exact Cert.Spec.accUpTo_last_hidden _ _ _ (i 0) (i 1)

end Value

theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun _ h c => ⟨(h c).1.trans (kernel_result m c), (h c).2⟩)
      (Cert.KernelIdeal.Hand.value_all (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v5_eq, Cert.ReferenceIdeal.RefValue.val_eq_G,
      (hagree c).1, (hagree c).2.1, (hagree c).2.2]

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
